-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x128x128 : Shape := ⟨4, ![16, 512, 128, 128]⟩
abbrev S1x512 : Shape := ⟨2, ![1, 512]⟩
abbrev S512x512 : Shape := ⟨2, ![512, 512]⟩
abbrev S512 : Shape := ⟨1, ![512]⟩
abbrev S_ : Shape := ⟨0, ![]⟩

class Facts : Prop where
  bcast_S_S16x512x128x128 : S_.BroadcastsInDim S16x512x128x128 (![] : Fin 0 → Fin S16x512x128x128.rank)
  reducesTo_S16x512x128x128_S_d0_1_2_3 : S16x512x128x128.ReducesTo [0, 1, 2, 3] S_
  h_S_ : 0 < S_.numel
  bcast_S_S1x512 : S_.BroadcastsInDim S1x512 (![] : Fin 0 → Fin S1x512.rank)
  reducesTo_S1x512_S_d0_1 : S1x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S1x512 .f32) (main_arg8 : FVec F S512x512 .f32) (main_v33 : IVec S_ 1) : IVec S_ 1 :=
  let main_v34 : FVec F S1x512 .f32 := Host.absf main_arg7
  let main_cst_12 : FVec F S_ .f32 := constant S_ .f32 0x7F800000#32
  let main_v35 : FVec F S1x512 .f32 := broadcastInDim S1x512 ![] bcast_S_S1x512 main_cst_12
  let main_v36 : IVec S1x512 1 := cmpf .olt main_v34 main_v35
  let main_c_13 : IVec S_ 1 := constantI S_ 1 1#1
  let main_v37 : IVec S_ 1 := (fun x v => Host.reduce IntOp.andi x v reducesTo_S1x512_S_d0_1 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  main_v43

def fn_part1 {F : FTy → Type} [FloatOps F] (main_arg4 : FVec F S512 .f32) (main_arg5 : FVec F S1x512 .f32) (main_arg6 : FVec F S512 .f32) (main_arg7 : FVec F S1x512 .f32) (main_arg8 : FVec F S512x512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1x512 .f32 := Host.absf main_arg5
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S16x512x128x128 .f32) (main_arg1 : FVec F S1x512 .f32) (main_arg2 : FVec F S512x512 .f32) (main_arg3 : FVec F S512 .f32) (main_arg4 : FVec F S512 .f32) (main_arg5 : FVec F S1x512 .f32) (main_arg6 : FVec F S512 .f32) (main_arg7 : FVec F S1x512 .f32) (main_arg8 : FVec F S512x512 .f32) : IVec S_ 1 :=
  let main_v0 : FVec F S16x512x128x128 .f32 := Host.absf main_arg0
  let main_cst : FVec F S_ .f32 := constant S_ .f32 0x7F800000#32
  let main_v1 : FVec F S16x512x128x128 .f32 := broadcastInDim S16x512x128x128 ![] bcast_S_S16x512x128x128 main_cst
  let main_v2 : IVec S16x512x128x128 1 := cmpf .olt main_v0 main_v1
  let main_c : IVec S_ 1 := constantI S_ 1 1#1
  let main_v3 : IVec S_ 1 := (fun x v => Host.reduce IntOp.andi x v reducesTo_S16x512x128x128_S_d0_1_2_3 h_S_) main_v2 main_c
  let main_v4 : FVec F S1x512 .f32 := Host.absf main_arg1
  let main_cst_0 : FVec F S_ .f32 := constant S_ .f32 0x7F800000#32
  let main_v5 : FVec F S1x512 .f32 := broadcastInDim S1x512 ![] bcast_S_S1x512 main_cst_0
  let main_v6 : IVec S1x512 1 := cmpf .olt main_v4 main_v5
  let main_c_1 : IVec S_ 1 := constantI S_ 1 1#1
  let main_v7 : IVec S_ 1 := (fun x v => Host.reduce IntOp.andi x v reducesTo_S1x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_v13 main_v16
-- ==== Kernel.lean ====
abbrev S16x512x128x128 : Shape := ⟨4, ![16, 512, 128, 128]⟩
abbrev S1x512 : Shape := ⟨2, ![1, 512]⟩
abbrev S512x512 : Shape := ⟨2, ![512, 512]⟩
abbrev S512 : Shape := ⟨1, ![512]⟩
abbrev S8192x16384 : Shape := ⟨2, ![8192, 16384]⟩
abbrev S32x1x256 : Shape := ⟨3, ![32, 1, 256]⟩
abbrev S256x16384 : Shape := ⟨2, ![256, 16384]⟩
abbrev S1x1x256 : Shape := ⟨3, ![1, 1, 256]⟩
abbrev S256 : Shape := ⟨1, ![256]⟩
abbrev S256x1 : Shape := ⟨2, ![256, 1]⟩
abbrev S1x256 : Shape := ⟨2, ![1, 256]⟩
abbrev S8192 : Shape := ⟨1, ![8192]⟩
abbrev S16x512 : Shape := ⟨2, ![16, 512]⟩
abbrev S_ : Shape := ⟨0, ![]⟩
abbrev S512x1 : Shape := ⟨2, ![512, 1]⟩
abbrev S16x512x1x1 : Shape := ⟨4, ![16, 512, 1, 1]⟩

abbrev nBuf : Space → Nat
  | .hbm => 97
  | .vmem => 4
  | .smem => 0
  | _ => 0

abbrev bufTy : (tb : Table) → Fin (tcTables nBuf tb) → BufTy
  | .hbm, ⟨0, _⟩ => ⟨S16x512x128x128, .f32⟩
  | .hbm, ⟨1, _⟩ => ⟨S1x512, .f32⟩
  | .hbm, ⟨2, _⟩ => ⟨S512x512, .f32⟩
  | .hbm, ⟨3, _⟩ => ⟨S512, .f32⟩
  | .hbm, ⟨4, _⟩ => ⟨S512, .f32⟩
  | .hbm, ⟨5, _⟩ => ⟨S1x512, .f32⟩
  | .hbm, ⟨6, _⟩ => ⟨S512, .f32⟩
  | .hbm, ⟨7, _⟩ => ⟨S1x512, .f32⟩
  | .hbm, ⟨8, _⟩ => ⟨S512x512, .f32⟩
  | .hbm, ⟨9, _⟩ => ⟨S8192x16384, .f32⟩
  | .hbm, ⟨10, _⟩ => ⟨S32x1x256, .f32⟩
  | .hbm, ⟨11, _⟩ => ⟨S8192, .f32⟩
  | .hbm, ⟨12, _⟩ => ⟨S16x512, .f32⟩
  | .hbm, ⟨13, _⟩ => ⟨S16x512, .f32⟩
  | .hbm, ⟨14, _⟩ => ⟨S16x512, .f32⟩
  | .hbm, ⟨15, _⟩ => ⟨S16x512, .f32⟩
  | .hbm, ⟨16, _⟩ => ⟨S512x512, .f32⟩
  | .hbm, ⟨17, _⟩ => ⟨S_, .f32⟩
  | .hbm, ⟨18, _⟩ => ⟨S512, .f32⟩
  | .hbm, ⟨19, _⟩ => ⟨S512x1, .f32⟩
  | .hbm, ⟨20, _⟩ => ⟨S_, .f32⟩
  | .hbm, ⟨21, _⟩ => ⟨S512x1, .f32⟩
  | .hbm, ⟨22, _⟩ => ⟨S512x1, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S512x512, .f32⟩
  | .hbm, ⟨27, _⟩ => ⟨S16x512, .f32⟩
  | .hbm, ⟨28, _⟩ => ⟨S_, .f32⟩
  | .hbm, ⟨29, _⟩ => ⟨S512, .f32⟩
  | .hbm, ⟨30, _⟩ => ⟨S_, .f32⟩
  | .hbm, ⟨31, _⟩ => ⟨S512, .f32⟩
  | .hbm, ⟨32, _⟩ => ⟨S512, .f32⟩
  | .hbm, ⟨33, _⟩ => ⟨S_, .i32⟩
  | .hbm, ⟨34, _⟩ => ⟨S_, .f32⟩
  | .hbm, ⟨35, _⟩ => ⟨S512, .f32⟩
  | .hbm, ⟨36, _⟩ => ⟨S1x512, .f32⟩
  | .hbm, ⟨37, _⟩ => ⟨S_, .f32⟩
  | .hbm, ⟨38, _⟩ => ⟨S1x512, .f32⟩
  | .hbm, ⟨39, _⟩ => ⟨S1x512, .f32⟩
  | .hbm, ⟨40, _⟩ => ⟨S16x512, .f32⟩
  | .hbm, ⟨41, _⟩ => ⟨S16x512, .f32⟩
  | .hbm, ⟨42, _⟩ => ⟨S16x512, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S512, .f32⟩
  | .hbm, ⟨48, _⟩ => ⟨S512, .f32⟩
  | .hbm, ⟨49, _⟩ => ⟨S512, .f32⟩
  | .hbm, ⟨50, _⟩ => ⟨S_, .f32⟩
  | .hbm, ⟨51, _⟩ => ⟨S_, .i1⟩
  | .hbm, ⟨52, _⟩ => ⟨S_, .f32⟩
  | .hbm, ⟨53, _⟩ => ⟨S_, .f32⟩
  | .hbm, ⟨54, _⟩ => ⟨S512, .f32⟩
  | .hbm, ⟨55, _⟩ => ⟨S512, .f32⟩
  | .hbm, ⟨56, _⟩ => ⟨S1x512, .f32⟩
  | .hbm, ⟨57, _⟩ => ⟨S16x512, .f32⟩
  | .hbm, ⟨58, _⟩ => ⟨S16x512, .f32⟩
  | .hbm, ⟨59, _⟩ => ⟨S_, .f32⟩
  | .hbm, ⟨60, _⟩ => ⟨S512, .f32⟩
  | .hbm, ⟨61, _⟩ => ⟨S512, .f32⟩
  | .hbm, ⟨62, _⟩ => ⟨S512, .f32⟩
  | .hbm, ⟨63, _⟩ => ⟨S1x512, .f32⟩
  | .hbm, ⟨64, _⟩ => ⟨S16x512, .f32⟩
  | .hbm, ⟨65, _⟩ => ⟨S16x512, .f32⟩
  | .hbm, ⟨66, _⟩ => ⟨S1x512, .f32⟩
  | .hbm, ⟨67, _⟩ => ⟨S16x512, .f32⟩
  | .hbm, ⟨68, _⟩ => ⟨S16x512, .f32⟩
  | .hbm, ⟨69, _⟩ => ⟨S1x512, .f32⟩
  | .hbm, ⟨70, _⟩ => ⟨S16x512, .f32⟩
  | .hbm, ⟨71, _⟩ => ⟨S16x512, .f32⟩
  | .hbm, ⟨72, _⟩ => ⟨S16x512, .f32⟩
  | .hbm, ⟨73, _⟩ => ⟨S16x512, .f32⟩
  | .hbm, ⟨74, _⟩ => ⟨S_, .f32⟩
  | .hbm, ⟨75, _⟩ => ⟨S16x512, .f32⟩
  | .hbm, ⟨76, _⟩ => ⟨S16x512, .i1⟩
  | .hbm, ⟨77, _⟩ => ⟨S1x512, .f32⟩
  | .hbm, ⟨78, _⟩ => ⟨S16x512, .f32⟩
  | .hbm, ⟨79, _⟩ => ⟨S16x512, .f32⟩
  | .hbm, ⟨80, _⟩ => ⟨S16x512, .f32⟩
  | .hbm, ⟨81, _⟩ => ⟨S16x512, .f32⟩
  | .hbm, ⟨82, _⟩ => ⟨S16x512, .f32⟩
  | .hbm, ⟨83, _⟩ => ⟨S16x512, .f32⟩
  | .hbm, ⟨84, _⟩ => ⟨S512x512, .f32⟩
  | .hbm, ⟨85, _⟩ => ⟨S_, .f32⟩
  | .hbm, ⟨86, _⟩ => ⟨S512, .f32⟩
  | .hbm, ⟨87, _⟩ => ⟨S512x1, .f32⟩
  | .hbm, ⟨88, _⟩ => ⟨S_, .f32⟩
  | .hbm, ⟨89, _⟩ => ⟨S512x1, .f32⟩
  | .hbm, ⟨90, _⟩ => ⟨S512x1, .f32⟩
  | .hbm, ⟨91, _⟩ => ⟨S512x512, .f32⟩
  | .hbm, ⟨92, _⟩ => ⟨S512x512, .f32⟩
  | .hbm, ⟨93, _⟩ => ⟨S512x512, .f32⟩
  | .hbm, ⟨94, _⟩ => ⟨S512x512, .f32⟩
  | .hbm, ⟨95, _⟩ => ⟨S16x512, .f32⟩
  | .hbm, ⟨96, _⟩ => ⟨S16x512x1x1, .f32⟩
  | .local _ .vmem, ⟨0, _⟩ => ⟨S256x16384, .f32⟩
  | .local _ .vmem, ⟨1, _⟩ => ⟨S256x16384, .f32⟩
  | .local _ .vmem, ⟨2, _⟩ => ⟨S1x1x256, .f32⟩
  | .local _ .vmem, ⟨3, _⟩ => ⟨S1x1x256, .f32⟩
  | _, _ => ⟨S16x512x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_c : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_cst_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_cst_1 : Ref sig .tc := ⟨.hbm, 44, rfl⟩
abbrev main_call0_v8 : Ref sig .tc := ⟨.hbm, 45, rfl⟩
abbrev main_call0_cst_2 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_cst_3 : Ref sig .tc := ⟨.hbm, 50, rfl⟩
abbrev main_call0_v12 : Ref sig .tc := ⟨.hbm, 51, rfl⟩
abbrev main_call0_cst_4 : Ref sig .tc := ⟨.hbm, 52, rfl⟩
abbrev main_call0_call0_v0 : Ref sig .tc := ⟨.hbm, 53, rfl⟩
abbrev main_call0_call0_v1 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_cst_3 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_cst_4 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_cst_5 : Ref sig .tc := ⟨.hbm, 85, rfl⟩
abbrev main_v48 : Ref sig .tc := ⟨.hbm, 86, rfl⟩
abbrev main_v49 : Ref sig .tc := ⟨.hbm, 87, rfl⟩
abbrev main_cst_6 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x512x128x128_S8192x16384 : S16x512x128x128.ShapeCasts S8192x16384
  inb_S256x16384_S256x16384_0_0 : ∀ a, (![0, 0] : Fin 2 → Nat) a + S256x16384.size a ≤ S256x16384.size a
  h_S256x16384 : 0 < S256x16384.numel
  shapeCasts_S256x16384_S256x16384 : S256x16384.ShapeCasts S256x16384
  reduces_S256x16384_S256 : S256x16384.Reduces [1] S256
  shapeCasts_S256_S256x1 : S256.ShapeCasts S256x1
  transposes_S256x1_p1_0_S1x256 : S256x1.Transposes [1, 0] S1x256
  shapeCasts_S1x256_S1x1x256 : S1x256.ShapeCasts S1x1x256
  inb_S1x1x256_S1x1x256_0_0_0 : ∀ a, (![0, 0, 0] : Fin 3 → Nat) a + S1x1x256.size a ≤ S1x1x256.size a
  h_S1x1x256 : 0 < S1x1x256.numel
  shapeCasts_S32x1x256_S8192 : S32x1x256.ShapeCasts S8192
  shapeCasts_S8192_S16x512 : S8192.ShapeCasts S16x512
  bcast_S1x512_S16x512_0_1 : S1x512.BroadcastsInDim S16x512 (![0, 1] : Fin 2 → Fin S16x512.rank)
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  transposes_S512x512_S512x512_1_0 : S512x512.Transposes [1, 0] S512x512
  reducesTo_S16x512_S512_d0 : S16x512.ReducesTo [0] S512
  bcast_S_S512 : S_.BroadcastsInDim S512 (![] : Fin 0 → Fin S512.rank)
  bcast_S512_S1x512_1 : S512.BroadcastsInDim S1x512 (![1] : Fin 1 → Fin S1x512.rank)
  bcast_S_S1x512 : S_.BroadcastsInDim S1x512 (![] : Fin 0 → Fin S1x512.rank)
  bcast_S_S16x512 : S_.BroadcastsInDim S16x512 (![] : Fin 0 → Fin S16x512.rank)
  bcast_S16x512_S16x512x1x1_0_1 : S16x512.BroadcastsInDim S16x512x1x1 (![0, 1] : Fin 2 → Fin S16x512x1x1.rank)
  dot_S16x512_S512x512_S16x512_1_0_0_1_n_n_wf : DotDims.WF S16x512 S512x512 S16x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16384.size a ≤ S8192x16384.size a
  hwx0_0 : ∀ i : grid0.Coords, EltTy.bits .f32 = 32 ∨ (Rect.block (s := S8192x16384) S256x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256.size a ≤ S32x1x256.size a
  hwx0_1 : ∀ i : grid0.Coords, EltTy.bits .f32 = 32 ∨ (Rect.block (s := S32x1x256) S1x1x256.size (cc0_transform_1 i) (hinb0_1 i)).WholeWords (EltTy.packing .f32)

variable [Facts₀]

def dot_S16x512_S512x512_S16x512_1_0_0_1_n_n : DotDims S16x512 S512x512 S16x512 where
  lhsContracting := [1]
  rhsContracting := [0]
  lhsNonContracting := [0]
  rhsNonContracting := [1]
  lhsBatch := []
  rhsBatch := []
  wf := dot_S16x512_S512x512_S16x512_1_0_0_1_n_n_wf

abbrev win0_0 : Pipeline.Window sig grid0 :=
  Pipeline.Window.ofSpec (Memref.whole main_v0) S256x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x512x128x128 : Shape := ⟨4, ![16, 512, 128, 128]⟩
abbrev S1x512 : Shape := ⟨2, ![1, 512]⟩
abbrev S512x512 : Shape := ⟨2, ![512, 512]⟩
abbrev S512 : Shape := ⟨1, ![512]⟩
abbrev S_ : Shape := ⟨0, ![]⟩
abbrev S16x512 : Shape := ⟨2, ![16, 512]⟩
abbrev S512x1 : Shape := ⟨2, ![512, 1]⟩
abbrev S16x512x1x1 : Shape := ⟨4, ![16, 512, 1, 1]⟩

abbrev nBuf : Space → Nat
  | .hbm => 180
  | .vmem => 0
  | .smem => 0
  | _ => 0

abbrev hbmTy0_0 (i : Nat) : BufTy := match i % 128 with
  | 0 => ⟨S16x512x128x128, .f32⟩
  | 1 => ⟨S1x512, .f32⟩
  | 2 => ⟨S512x512, .f32⟩
  | 3 => ⟨S512, .f32⟩
  | 4 => ⟨S512, .f32⟩
  | 5 => ⟨S1x512, .f32⟩
  | 6 => ⟨S512, .f32⟩
  | 7 => ⟨S1x512, .f32⟩
  | 8 => ⟨S512x512, .f32⟩
  | 9 => ⟨S_, .f32⟩
  | 10 => ⟨S16x512, .f32⟩
  | 11 => ⟨S_, .f32⟩
  | 12 => ⟨S16x512, .f32⟩
  | 13 => ⟨S16x512, .f32⟩
  | 14 => ⟨S16x512, .f32⟩
  | 15 => ⟨S16x512, .f32⟩
  | 16 => ⟨S_, .f32⟩
  | 17 => ⟨S16x512, .f32⟩
  | 18 => ⟨S16x512, .i1⟩
  | 19 => ⟨S_, .f32⟩
  | 20 => ⟨S16x512, .f32⟩
  | 21 => ⟨S16x512, .i1⟩
  | 22 => ⟨S16x512, .f32⟩
  | 23 => ⟨S_, .f32⟩
  | 24 => ⟨S16x512, .f32⟩
  | 25 => ⟨S16x512, .f32⟩
  | 26 => ⟨S16x512, .f32⟩
  | 27 => ⟨S_, .f32⟩
  | 28 => ⟨S16x512, .f32⟩
  | 29 => ⟨S16x512, .i1⟩
  | 30 => ⟨S16x512, .f32⟩
  | 31 => ⟨S16x512, .f32⟩
  | 32 => ⟨S_, .f32⟩
  | 33 => ⟨S16x512, .f32⟩
  | 34 => ⟨S16x512, .f32⟩
  | 35 => ⟨S16x512, .f32⟩
  | 36 => ⟨S_, .f32⟩
  | 37 => ⟨S_, .f32⟩
  | 38 => ⟨S16x512, .f32⟩
  | 39 => ⟨S16x512, .f32⟩
  | 40 => ⟨S16x512, .f32⟩
  | 41 => ⟨S_, .f32⟩
  | 42 => ⟨S_, .f32⟩
  | 43 => ⟨S16x512, .f32⟩
  | 44 => ⟨S16x512, .f32⟩
  | 45 => ⟨S16x512, .f32⟩
  | 46 => ⟨S16x512, .f32⟩
  | 47 => ⟨S16x512, .f32⟩
  | 48 => ⟨S512x512, .f32⟩
  | 49 => ⟨S_, .f32⟩
  | 50 => ⟨S512, .f32⟩
  | 51 => ⟨S512x1, .f32⟩
  | 52 => ⟨S_, .f32⟩
  | 53 => ⟨S512x1, .f32⟩
  | 54 => ⟨S512x1, .f32⟩
  | 55 => ⟨S512x512, .f32⟩
  | 56 => ⟨S512x512, .f32⟩
  | 57 => ⟨S512x512, .f32⟩
  | 58 => ⟨S_, .f32⟩
  | 59 => ⟨S_, .f32⟩
  | 60 => ⟨S_, .f32⟩
  | 61 => ⟨S512x512, .f32⟩
  | 62 => ⟨S512x512, .f32⟩
  | 63 => ⟨S_, .f32⟩
  | 64 => ⟨S512x512, .f32⟩
  | 65 => ⟨S512x512, .f32⟩
  | 66 => ⟨S512x512, .f32⟩
  | 67 => ⟨S512x512, .f32⟩
  | 68 => ⟨S512x512, .f32⟩
  | 69 => ⟨S16x512, .f32⟩
  | 70 => ⟨S_, .f32⟩
  | 71 => ⟨S512, .f32⟩
  | 72 => ⟨S_, .f32⟩
  | 73 => ⟨S512, .f32⟩
  | 74 => ⟨S512, .f32⟩
  | 75 => ⟨S_, .i32⟩
  | 76 => ⟨S_, .f32⟩
  | 77 => ⟨S512, .f32⟩
  | 78 => ⟨S1x512, .f32⟩
  | 79 => ⟨S_, .f32⟩
  | 80 => ⟨S1x512, .f32⟩
  | 81 => ⟨S1x512, .f32⟩
  | 82 => ⟨S16x512, .f32⟩
  | 83 => ⟨S16x512, .f32⟩
  | 84 => ⟨S16x512, .f32⟩
  | 85 => ⟨S_, .f32⟩
  | 86 => ⟨S_, .f32⟩
  | 87 => ⟨S_, .f32⟩
  | 88 => ⟨S_, .f32⟩
  | 89 => ⟨S512, .f32⟩
  | 90 => ⟨S512, .f32⟩
  | 91 => ⟨S512, .f32⟩
  | 92 => ⟨S_, .f32⟩
  | 93 => ⟨S_, .i1⟩
  | 94 => ⟨S_, .f32⟩
  | 95 => ⟨S_, .f32⟩
  | 96 => ⟨S512, .f32⟩
  | 97 => ⟨S512, .f32⟩
  | 98 => ⟨S1x512, .f32⟩
  | 99 => ⟨S16x512, .f32⟩
  | 100 => ⟨S16x512, .f32⟩
  | 101 => ⟨S_, .f32⟩
  | 102 => ⟨S512, .f32⟩
  | 103 => ⟨S512, .f32⟩
  | 104 => ⟨S512, .f32⟩
  | 105 => ⟨S1x512, .f32⟩
  | 106 => ⟨S16x512, .f32⟩
  | 107 => ⟨S16x512, .f32⟩
  | 108 => ⟨S1x512, .f32⟩
  | 109 => ⟨S16x512, .f32⟩
  | 110 => ⟨S16x512, .f32⟩
  | 111 => ⟨S1x512, .f32⟩
  | 112 => ⟨S16x512, .f32⟩
  | 113 => ⟨S16x512, .f32⟩
  | 114 => ⟨S16x512, .f32⟩
  | 115 => ⟨S16x512, .f32⟩
  | 116 => ⟨S_, .f32⟩
  | 117 => ⟨S16x512, .f32⟩
  | 118 => ⟨S16x512, .i1⟩
  | 119 => ⟨S1x512, .f32⟩
  | 120 => ⟨S16x512, .f32⟩
  | 121 => ⟨S16x512, .f32⟩
  | 122 => ⟨S16x512, .f32⟩
  | 123 => ⟨S16x512, .f32⟩
  | 124 => ⟨S16x512, .f32⟩
  | 125 => ⟨S_, .f32⟩
  | 126 => ⟨S16x512, .f32⟩
  | 127 => ⟨S16x512, .i1⟩
  | _ => ⟨S16x512x128x128, .f32⟩

abbrev hbmTy0_1 (i : Nat) : BufTy := match i % 128 with
  | 0 => ⟨S_, .f32⟩
  | 1 => ⟨S16x512, .f32⟩
  | 2 => ⟨S16x512, .i1⟩
  | 3 => ⟨S16x512, .f32⟩
  | 4 => ⟨S_, .f32⟩
  | 5 => ⟨S16x512, .f32⟩
  | 6 => ⟨S16x512, .f32⟩
  | 7 => ⟨S16x512, .f32⟩
  | 8 => ⟨S_, .f32⟩
  | 9 => ⟨S16x512, .f32⟩
  | 10 => ⟨S16x512, .i1⟩
  | 11 => ⟨S16x512, .f32⟩
  | 12 => ⟨S16x512, .f32⟩
  | 13 => ⟨S_, .f32⟩
  | 14 => ⟨S16x512, .f32⟩
  | 15 => ⟨S16x512, .f32⟩
  | 16 => ⟨S16x512, .f32⟩
  | 17 => ⟨S_, .f32⟩
  | 18 => ⟨S_, .f32⟩
  | 19 => ⟨S16x512, .f32⟩
  | 20 => ⟨S16x512, .f32⟩
  | 21 => ⟨S16x512, .f32⟩
  | 22 => ⟨S_, .f32⟩
  | 23 => ⟨S_, .f32⟩
  | 24 => ⟨S16x512, .f32⟩
  | 25 => ⟨S16x512, .f32⟩
  | 26 => ⟨S16x512, .f32⟩
  | 27 => ⟨S16x512, .f32⟩
  | 28 => ⟨S16x512, .f32⟩
  | 29 => ⟨S512x512, .f32⟩
  | 30 => ⟨S_, .f32⟩
  | 31 => ⟨S512, .f32⟩
  | 32 => ⟨S512x1, .f32⟩
  | 33 => ⟨S_, .f32⟩
  | 34 => ⟨S512x1, .f32⟩
  | 35 => ⟨S512x1, .f32⟩
  | 36 => ⟨S512x512, .f32⟩
  | 37 => ⟨S512x512, .f32⟩
  | 38 => ⟨S512x512, .f32⟩
  | 39 => ⟨S_, .f32⟩
  | 40 => ⟨S_, .f32⟩
  | 41 => ⟨S_, .f32⟩
  | 42 => ⟨S512x512, .f32⟩
  | 43 => ⟨S512x512, .f32⟩
  | 44 => ⟨S_, .f32⟩
  | 45 => ⟨S512x512, .f32⟩
  | 46 => ⟨S512x512, .f32⟩
  | 47 => ⟨S512x512, .f32⟩
  | 48 => ⟨S512x512, .f32⟩
  | 49 => ⟨S512x512, .f32⟩
  | 50 => ⟨S16x512, .f32⟩
  | 51 => ⟨S16x512x1x1, .f32⟩
  | _ => ⟨S16x512x128x128, .f32⟩

abbrev hbmTy (i : Nat) : BufTy := match i / 128 with
  | 0 => hbmTy0_0 i
  | 1 => hbmTy0_1 i
  | _ => ⟨S16x512x128x128, .f32⟩

abbrev bufTy : (tb : Table) → Fin (tcTables nBuf tb) → BufTy
  | .hbm, ⟨i, _⟩ => hbmTy i
  | _, _ => ⟨S16x512x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_6 : Ref sig .tc := ⟨.hbm, 36, rfl⟩
abbrev main_call0_v0 : Ref sig .tc := ⟨.hbm, 37, rfl⟩
abbrev main_call0_v1 : Ref sig .tc := ⟨.hbm, 38, rfl⟩
abbrev main_v20 : Ref sig .tc := ⟨.hbm, 39, rfl⟩
abbrev main_v21 : Ref sig .tc := ⟨.hbm, 40, rfl⟩
abbrev main_cst_7 : Ref sig .tc := ⟨.hbm, 41, rfl⟩
abbrev main_call2_v0 : Ref sig .tc := ⟨.hbm, 42, rfl⟩
abbrev main_call2_v1 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_8 : Ref sig .tc := ⟨.hbm, 49, rfl⟩
abbrev main_v27 : Ref sig .tc := ⟨.hbm, 50, rfl⟩
abbrev main_v28 : Ref sig .tc := ⟨.hbm, 51, rfl⟩
abbrev main_cst_9 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_10 : Ref sig .tc := ⟨.hbm, 58, rfl⟩
abbrev main_cst_11 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_12 : Ref sig .tc := ⟨.hbm, 70, rfl⟩
abbrev main_v39 : Ref sig .tc := ⟨.hbm, 71, rfl⟩
abbrev main_cst_13 : Ref sig .tc := ⟨.hbm, 72, rfl⟩
abbrev main_v40 : Ref sig .tc := ⟨.hbm, 73, rfl⟩
abbrev main_v41 : Ref sig .tc := ⟨.hbm, 74, rfl⟩
abbrev main_c : Ref sig .tc := ⟨.hbm, 75, rfl⟩
abbrev main_call4_cst : Ref sig .tc := ⟨.hbm, 76, rfl⟩
abbrev main_call4_v0 : Ref sig .tc := ⟨.hbm, 77, rfl⟩
abbrev main_call4_v1 : Ref sig .tc := ⟨.hbm, 78, rfl⟩
abbrev main_call4_cst_0 : Ref sig .tc := ⟨.hbm, 79, rfl⟩
abbrev main_call4_v2 : Ref sig .tc := ⟨.hbm, 80, rfl⟩
abbrev main_call4_v3 : Ref sig .tc := ⟨.hbm, 81, rfl⟩
abbrev main_call4_v4 : Ref sig .tc := ⟨.hbm, 82, rfl⟩
abbrev main_call4_v5 : Ref sig .tc := ⟨.hbm, 83, rfl⟩
abbrev main_call4_v6 : Ref sig .tc := ⟨.hbm, 84, rfl⟩
abbrev main_call4_v7 : Ref sig .tc := ⟨.hbm, 85, rfl⟩
abbrev main_call4_cst_1 : Ref sig .tc := ⟨.hbm, 86, rfl⟩
abbrev main_call4_v8 : Ref sig .tc := ⟨.hbm, 87, rfl⟩
abbrev main_call4_cst_2 : Ref sig .tc := ⟨.hbm, 88, rfl⟩
abbrev main_call4_v9 : Ref sig .tc := ⟨.hbm, 89, rfl⟩
abbrev main_call4_v10 : Ref sig .tc := ⟨.hbm, 90, rfl⟩
abbrev main_call4_v11 : Ref sig .tc := ⟨.hbm, 91, rfl⟩
abbrev main_call4_cst_3 : Ref sig .tc := ⟨.hbm, 92, rfl⟩
abbrev main_call4_v12 : Ref sig .tc := ⟨.hbm, 93, rfl⟩
abbrev main_call4_cst_4 : Ref sig .tc := ⟨.hbm, 94, rfl⟩
abbrev main_call4_call0_v0 : Ref sig .tc := ⟨.hbm, 95, rfl⟩
abbrev main_call4_call0_v1 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_cst_14 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_cst_15 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_cst_16 : Ref sig .tc := ⟨.hbm, 125, rfl⟩
abbrev main_v68 : Ref sig .tc := ⟨.hbm, 126, rfl⟩
abbrev main_v69 : Ref sig .tc := ⟨.hbm, 127, rfl⟩
abbrev main_cst_17 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_cst_18 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_cst_19 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_cst_20 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_cst_21 : Ref sig .tc := ⟨.hbm, 145, rfl⟩
abbrev main_call6_v0 : Ref sig .tc := ⟨.hbm, 146, rfl⟩
abbrev main_call6_v1 : Ref sig .tc := ⟨.hbm, 147, rfl⟩
abbrev main_v83 : Ref sig .tc := ⟨.hbm, 148, rfl⟩
abbrev main_v84 : Ref sig .tc := ⟨.hbm, 149, rfl⟩
abbrev main_cst_22 : Ref sig .tc := ⟨.hbm, 150, rfl⟩
abbrev main_call8_v0 : Ref sig .tc := ⟨.hbm, 151, rfl⟩
abbrev main_call8_v1 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_cst_23 : Ref sig .tc := ⟨.hbm, 158, rfl⟩
abbrev main_v90 : Ref sig .tc := ⟨.hbm, 159, rfl⟩
abbrev main_v91 : Ref sig .tc := ⟨.hbm, 160, rfl⟩
abbrev main_cst_24 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_cst_25 : Ref sig .tc := ⟨.hbm, 167, rfl⟩
abbrev main_cst_26 : Ref sig .tc := ⟨.hbm, 168, rfl⟩
abbrev main_call9_v0 : Ref sig .tc := ⟨.hbm, 169, rfl⟩
abbrev main_call9_v1 : Ref sig .tc := ⟨.hbm, 170, rfl⟩
abbrev main_call9_v2 : Ref sig .tc := ⟨.hbm, 171, rfl⟩
abbrev main_call9_v3 : Ref sig .tc := ⟨.hbm, 172, rfl⟩
abbrev main_call9_v4 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩

abbrev nD : Nat := 1
abbrev τ : Topo := Topo.v7x

variable {F : FTy → Type} [FloatOps F]

class Facts₀ : Prop where
  reducesTo_S16x512x128x128_S16x512_d2_3 : S16x512x128x128.ReducesTo [2, 3] S16x512
  h_S_ : 0 < S_.numel
  bcast_S_S16x512 : S_.BroadcastsInDim S16x512 (![] : Fin 0 → Fin S16x512.rank)
  bcast_S1x512_S16x512_0_1 : S1x512.BroadcastsInDim S16x512 (![0, 1] : Fin 2 → Fin S16x512.rank)
  reducesTo_S512x512_S512_d1 : S512x512.ReducesTo [1] S512
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  bcast_S_S512x512 : S_.BroadcastsInDim S512x512 (![] : Fin 0 → Fin S512x512.rank)
  transposes_S512x512_S512x512_1_0 : S512x512.Transposes [1, 0] S512x512
  reducesTo_S16x512_S512_d0 : S16x512.ReducesTo [0] S512
  bcast_S_S512 : S_.BroadcastsInDim S512 (![] : Fin 0 → Fin S512.rank)
  bcast_S512_S1x512_1 : S512.BroadcastsInDim S1x512 (![1] : Fin 1 → Fin S1x512.rank)
  bcast_S_S1x512 : S_.BroadcastsInDim S1x512 (![] : Fin 0 → Fin S1x512.rank)
  bcast_S16x512_S16x512x1x1_0_1 : S16x512.BroadcastsInDim S16x512x1x1 (![0, 1] : Fin 2 → Fin S16x512x1x1.rank)
  dot_S16x512_S512x512_S16x512_1_0_0_1_n_n_wf : DotDims.WF S16x512 S512x512 S16x512 [1] [0] [0] [1] [] []

variable [Facts₀]

def dot_S16x512_S512x512_S16x512_1_0_0_1_n_n : DotDims S16x512 S512x512 S16x512 where
  lhsContracting := [1]
  rhsContracting := [0]
  lhsNonContracting := [0]
  rhsNonContracting := [1]
  lhsBatch := []
  rhsBatch := []
  wf := dot_S16x512_S512x512_S16x512_1_0_0_1_n_n_wf

class Facts : Prop extends Facts₀ where

variable [Facts]
-- ==== Proof.KDataB.lean ====
/-
  The average-pool region's proof data: what each window's staging buffer holds after the body at a grid point.
  The input window's buffer keeps block t of the relaid input (rows 256·t … 256·t + 255); the output window's buffer
  is overwritten whole by the pooled row of that block.
-/
import proofs.«413852_j23957327577370_3_alg».proof.Proof.Gen.Kernel.Launch
import proofs.«413852_j23957327577370_3_alg».proof.Proof.Gen.Kernel.Skeleton
import proofs.«413852_j23957327577370_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The host lines after the region, stretch by stretch. -/
abbrev tailOps : List (List (HloOp τ sig (Elt F))) := [hostOps1, hostOps1_1, hostOps1_2, hostOps1_3, hostOps1_4]

/-- Core c's buffer contents when the region is entered: the launch contents after the one relaying line. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole input block and the whole output row, as rectangles. -/
abbrev rIn : Rect S256x16384 := Rect.unit (s := S256x16384) ![0, 0] S256x16384.size inb_S256x16384_S256x16384_0_0
abbrev rOut : Rect S1x1x256 := Rect.unit (s := S1x1x256) ![0, 0, 0] S1x1x256.size inb_S1x1x256_S1x1x256_0_0_0

/-- The output buffer after the body: its one store, of the pooled row of the loaded block. -/
def outRow (x0 : Vec F S256x16384 .f32) : Vec F S1x1x256 .f32 :=
  View.canon [⟨rOut, k0_pay1 (View.ld x0 rIn)⟩]

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outRow (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = iblk m c 0 t := by dsimp only [dats]
theorem after_out (c : Dev nD) (t : Fin cfg0.N) : (dats m 0 c).after 1 t = outRow (iblk m c 0 t) := by dsimp only [dats]

end Cert.Kernel.Hand

end
-- ==== Proof.KFrameB.lean ====
/-
  The average-pool program runs to the end, faults nowhere and leaves its inputs unchanged.
-/
import proofs.«413852_j23957327577370_3_alg».proof.Proof.KDataB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The lines around the region

  One line relays the input before the region; eighty-six lines follow it, in five stretches. Each line writes the one buffer
  of its own result, reads buffers of the core only, and allocates nothing. -/

/-- The buffers the frame speaks of: the region's two arrays (the relaid input, the pooled rows) and the nine arguments. -/
abbrev keptRefs : List (Ref sig .tc) :=
  [main_v0, main_v1, main_arg0, main_arg1, main_arg2, main_arg3, main_arg4, main_arg5, main_arg6, main_arg7, main_arg8]

/-- No line allocates a buffer. -/
theorem fresh0 : (hostOps0 : List (HloOp τ sig (Elt F))).Forall fun op => op.fresh = ∅ := by
  simp only [hostOps0, List.Forall]; repeat' constructor
theorem fresh1 : (hostOps1 : List (HloOp τ sig (Elt F))).Forall fun op => op.fresh = ∅ := by
  simp only [hostOps1, List.Forall]; repeat' constructor
theorem fresh1_1 : (hostOps1_1 : List (HloOp τ sig (Elt F))).Forall fun op => op.fresh = ∅ := by
  simp only [hostOps1_1, List.Forall]; repeat' constructor
theorem fresh1_2 : (hostOps1_2 : List (HloOp τ sig (Elt F))).Forall fun op => op.fresh = ∅ := by
  simp only [hostOps1_2, List.Forall]; repeat' constructor
theorem fresh1_3 : (hostOps1_3 : List (HloOp τ sig (Elt F))).Forall fun op => op.fresh = ∅ := by
  simp only [hostOps1_3, List.Forall]; repeat' constructor
theorem fresh1_4 : (hostOps1_4 : List (HloOp τ sig (Elt F))).Forall fun op => op.fresh = ∅ := by
  simp only [hostOps1_4, List.Forall]; repeat' constructor

/-- No line after the region writes a buffer the frame speaks of: a line writes its own result only, and no result of a
    later line is an array of the region or an argument. Stretch by stretch. -/
theorem keep1 : (hostOps1 : List (HloOp τ sig (Elt F))).Forall fun op => keptRefs.Forall fun b => Proc.devRef .tc b ∉ op.writes := by
  simp only [hostOps1, keptRefs, List.Forall, StableHlo.nullary_writes, StableHlo.unary_writes, StableHlo.binary_writes, StableHlo.ternary_writes, StableHlo.reshape_writes, Finset.mem_singleton]
  repeat' apply And.intro
  all_goals exact StableHlo.devRef_ne_of_ne (by decide)
theorem keep1_1 : (hostOps1_1 : List (HloOp τ sig (Elt F))).Forall fun op => keptRefs.Forall fun b => Proc.devRef .tc b ∉ op.writes := by
  simp only [hostOps1_1, keptRefs, List.Forall, StableHlo.nullary_writes, StableHlo.unary_writes, StableHlo.binary_writes, StableHlo.ternary_writes, StableHlo.reshape_writes, Finset.mem_singleton]
  repeat' apply And.intro
  all_goals exact StableHlo.devRef_ne_of_ne (by decide)
theorem keep1_2 : (hostOps1_2 : List (HloOp τ sig (Elt F))).Forall fun op => keptRefs.Forall fun b => Proc.devRef .tc b ∉ op.writes := by
  simp only [hostOps1_2, keptRefs, List.Forall, StableHlo.nullary_writes, StableHlo.unary_writes, StableHlo.binary_writes, StableHlo.ternary_writes, StableHlo.reshape_writes, Finset.mem_singleton]
  repeat' apply And.intro
  all_goals exact StableHlo.devRef_ne_of_ne (by decide)
theorem keep1_3 : (hostOps1_3 : List (HloOp τ sig (Elt F))).Forall fun op => keptRefs.Forall fun b => Proc.devRef .tc b ∉ op.writes := by
  simp only [hostOps1_3, keptRefs, List.Forall, StableHlo.nullary_writes, StableHlo.unary_writes, StableHlo.binary_writes, StableHlo.ternary_writes, StableHlo.reshape_writes, Finset.mem_singleton]
  repeat' apply And.intro
  all_goals exact StableHlo.devRef_ne_of_ne (by decide)
theorem keep1_4 : (hostOps1_4 : List (HloOp τ sig (Elt F))).Forall fun op => keptRefs.Forall fun b => Proc.devRef .tc b ∉ op.writes := by
  simp only [hostOps1_4, keptRefs, List.Forall, StableHlo.nullary_writes, StableHlo.unary_writes, StableHlo.binary_writes, StableHlo.ternary_writes, StableHlo.reshape_writes, Finset.mem_singleton]
  repeat' apply And.intro
  all_goals exact StableHlo.devRef_ne_of_ne (by decide)

/-- The same, over all five stretches at once. -/
theorem tail_keeps (b : Ref sig .tc) (hb : b ∈ keptRefs) : ∀ ops ∈ (tailOps : List (List (HloOp τ sig (Elt F)))), ∀ op ∈ ops,
    Proc.devRef .tc b ∉ op.writes := by
  intro ops hops op hop
  simp only [List.mem_cons, List.mem_nil_iff, or_false] at hops
  rcases hops with rfl | rfl | rfl | rfl | rfl
  · exact List.forall_iff_forall_mem.mp (List.forall_iff_forall_mem.mp keep1 op hop) b hb
  · exact List.forall_iff_forall_mem.mp (List.forall_iff_forall_mem.mp keep1_1 op hop) b hb
  · exact List.forall_iff_forall_mem.mp (List.forall_iff_forall_mem.mp keep1_2 op hop) b hb
  · exact List.forall_iff_forall_mem.mp (List.forall_iff_forall_mem.mp keep1_3 op hop) b hb
  · exact List.forall_iff_forall_mem.mp (List.forall_iff_forall_mem.mp keep1_4 op hop) b hb

/-- The program is the relaying line, the region, then the five stretches: it reduces to the region continued by the
    stretches, entered at the contents the relaying line leaves. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps (by simp only [List.Forall]; exact hostOps0_sub)
    (by simp only [List.Forall]; exact fresh0) main_chain

/-- The later lines touch unscoped buffers of the core only: the region's arrays or buffers that bypass it. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp fresh1) op hop
  · exact (List.forall_iff_forall_mem.mp fresh1_1) op hop
  · exact (List.forall_iff_forall_mem.mp fresh1_2) op hop
  · exact (List.forall_iff_forall_mem.mp fresh1_3) op hop
  · exact (List.forall_iff_forall_mem.mp fresh1_4) op hop

/-- They write neither array of the region. -/
theorem sfx_keeps : ∀ ops ∈ (tailOps : List (List (HloOp τ sig (Elt F)))), ∀ op ∈ ops,
    ∀ w, Proc.devRef .tc (Pipeline.arrRef spec0 w) ∉ op.writes := by
  intro ops hops op hop w
  fin_cases w
  · exact tail_keeps main_v0 (by decide) ops hops op hop
  · exact tail_keeps main_v1 (by decide) ops hops op hop

/-- A buffer other than the relaid input is entered by the region as launched: the relaying line writes the relaid input only. -/
theorem entry_of_ne (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.flatten_cons, List.flatten_nil, List.append_nil, List.Forall, StableHlo.reshape_writes, Finset.mem_singleton]
    exact StableHlo.devRef_ne_of_ne hb))

/-- A buffer the frame speaks of that is no array of the region ends as the region found it: the region leaves it alone
    and no later line writes it. -/
theorem tail_of_kept (c : Dev nD) (b : Ref sig .tc) (hb : b ∈ keptRefs) (hne : ∀ w, Pipeline.arrRef spec0 w ≠ b) :
    Pipeline.afterTail₀ cfgs (dats m) 0 (V0 m) tailOps c b = V m c b := by
  unfold Pipeline.afterTail₀
  rw [StableHlo.after_of_forall_not_mem (b := Proc.devRef .tc b) _ _ (fun op hop => by
      obtain ⟨ops, hops, hop'⟩ := List.mem_flatten.mp hop
      exact tail_keeps b hb ops hops op hop'),
    Pipeline.withArrays_of_ne _ c (V0 m c) _ b (by exact hne)]

/-- The region finds the relaid input as the reshape of the launched input. -/
theorem entry_v0 (c : Dev nD) : V m c main_v0 = shapeCast S8192x16384 (m ((c : Thread nD τ).loc main_arg0)) shapeCasts_S16x512x128x128_S8192x16384 := by
  dsimp only [V, V0, hostOps0]
  simp only [List.flatten_cons, List.flatten_nil, List.append_nil]
  after_results
  rfl

/-- The one line before the region does not write argument 0. -/
theorem entry_arg0 (c : Dev nD) : V m c main_arg0 = m ((c : Thread nD τ).loc main_arg0) :=
  entry_of_ne m c main_arg0 (by decide)

/-- The one line before the region does not write argument 1. -/
theorem entry_arg1 (c : Dev nD) : V m c main_arg1 = m ((c : Thread nD τ).loc main_arg1) :=
  entry_of_ne m c main_arg1 (by decide)

/-- The one line before the region does not write argument 2. -/
theorem entry_arg2 (c : Dev nD) : V m c main_arg2 = m ((c : Thread nD τ).loc main_arg2) :=
  entry_of_ne m c main_arg2 (by decide)

/-- The one line before the region does not write argument 3. -/
theorem entry_arg3 (c : Dev nD) : V m c main_arg3 = m ((c : Thread nD τ).loc main_arg3) :=
  entry_of_ne m c main_arg3 (by decide)

/-- The one line before the region does not write argument 4. -/
theorem entry_arg4 (c : Dev nD) : V m c main_arg4 = m ((c : Thread nD τ).loc main_arg4) :=
  entry_of_ne m c main_arg4 (by decide)

/-- The one line before the region does not write argument 5. -/
theorem entry_arg5 (c : Dev nD) : V m c main_arg5 = m ((c : Thread nD τ).loc main_arg5) :=
  entry_of_ne m c main_arg5 (by decide)

/-- The one line before the region does not write argument 6. -/
theorem entry_arg6 (c : Dev nD) : V m c main_arg6 = m ((c : Thread nD τ).loc main_arg6) :=
  entry_of_ne m c main_arg6 (by decide)

/-- The one line before the region does not write argument 7. -/
theorem entry_arg7 (c : Dev nD) : V m c main_arg7 = m ((c : Thread nD τ).loc main_arg7) :=
  entry_of_ne m c main_arg7 (by decide)

/-- The one line before the region does not write argument 8. -/
theorem entry_arg8 (c : Dev nD) : V m c main_arg8 = m ((c : Thread nD τ).loc main_arg8) :=
  entry_of_ne m c main_arg8 (by decide)

/-- No line after the region writes argument 0. -/
theorem tail_arg0 (c : Dev nD) : Pipeline.afterTail₀ cfgs (dats m) 0 (V0 m) tailOps c main_arg0 = m ((c : Thread nD τ).loc main_arg0) :=
  (tail_of_kept m c main_arg0 (by decide) (by decide)).trans (entry_arg0 m c)

/-- No line after the region writes argument 1. -/
theorem tail_arg1 (c : Dev nD) : Pipeline.afterTail₀ cfgs (dats m) 0 (V0 m) tailOps c main_arg1 = m ((c : Thread nD τ).loc main_arg1) :=
  (tail_of_kept m c main_arg1 (by decide) (by decide)).trans (entry_arg1 m c)

/-- No line after the region writes argument 2. -/
theorem tail_arg2 (c : Dev nD) : Pipeline.afterTail₀ cfgs (dats m) 0 (V0 m) tailOps c main_arg2 = m ((c : Thread nD τ).loc main_arg2) :=
  (tail_of_kept m c main_arg2 (by decide) (by decide)).trans (entry_arg2 m c)

/-- No line after the region writes argument 3. -/
theorem tail_arg3 (c : Dev nD) : Pipeline.afterTail₀ cfgs (dats m) 0 (V0 m) tailOps c main_arg3 = m ((c : Thread nD τ).loc main_arg3) :=
  (tail_of_kept m c main_arg3 (by decide) (by decide)).trans (entry_arg3 m c)

/-- No line after the region writes argument 4. -/
theorem tail_arg4 (c : Dev nD) : Pipeline.afterTail₀ cfgs (dats m) 0 (V0 m) tailOps c main_arg4 = m ((c : Thread nD τ).loc main_arg4) :=
  (tail_of_kept m c main_arg4 (by decide) (by decide)).trans (entry_arg4 m c)

/-- No line after the region writes argument 5. -/
theorem tail_arg5 (c : Dev nD) : Pipeline.afterTail₀ cfgs (dats m) 0 (V0 m) tailOps c main_arg5 = m ((c : Thread nD τ).loc main_arg5) :=
  (tail_of_kept m c main_arg5 (by decide) (by decide)).trans (entry_arg5 m c)

/-- No line after the region writes argument 6. -/
theorem tail_arg6 (c : Dev nD) : Pipeline.afterTail₀ cfgs (dats m) 0 (V0 m) tailOps c main_arg6 = m ((c : Thread nD τ).loc main_arg6) :=
  (tail_of_kept m c main_arg6 (by decide) (by decide)).trans (entry_arg6 m c)

/-- No line after the region writes argument 7. -/
theorem tail_arg7 (c : Dev nD) : Pipeline.afterTail₀ cfgs (dats m) 0 (V0 m) tailOps c main_arg7 = m ((c : Thread nD τ).loc main_arg7) :=
  (tail_of_kept m c main_arg7 (by decide) (by decide)).trans (entry_arg7 m c)

/-- No line after the region writes argument 8. -/
theorem tail_arg8 (c : Dev nD) : Pipeline.afterTail₀ cfgs (dats m) 0 (V0 m) tailOps c main_arg8 = m ((c : Thread nD τ).loc main_arg8) :=
  (tail_of_kept m c main_arg8 (by decide) (by decide)).trans (entry_arg8 m c)

/-! ## The body at a grid point

  The body loads the whole input block, loads the output buffer without using it, and stores the pooled row over the whole
  output buffer. So the input buffer is left as found, and the output buffer holds the pooled row of the block. -/

/-- The one store fills the output buffer: its rectangle is the whole buffer. -/
theorem cover_out (p0 : Vec F S1x1x256 .f32) (y : S1x1x256.Idx) :
    ∃ pc ∈ ([⟨rOut, p0⟩] : List (View.Piece (Elt F) S1x1x256 .f32)), y ∈ pc.1.set :=
  View.cover_of_tiled [⟨rOut, p0⟩] S1x1x256.size (by rfl) y

set_option maxHeartbeats 1000000 in
/-- The body on whole staging buffers, the input's at read contents x0 and the output's at anything, runs to the
    continuation holding the input's as it was and the output's at the pooled row of x0. -/
theorem sound_kernel (c : Dev nD) (E : Set ℕ) (i : grid0.Coords) (arg1 : Memref sig .tc .vmem S256x16384 .f32) (harg1 : arg1.IsWhole)
    (arg2 : Memref sig .tc .vmem S1x1x256 .f32) (harg2 : arg2.IsWhole)
    (x0 : Vec F S256x16384 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outRow x0)) -∗ K ⟨⟩))
      ⊢ wp frame (wpE (defs₀ (F := F)) Variants.none c none) E (cc0__avgpool_kernel i arg1 harg1 arg2 harg2) K := by
  simp only [cc0__avgpool_kernel_eq_skeleton]; unfold cc0__avgpool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_out _)

/-- The input window's current staging buffer holds its block at every point, fetched there or not: a point that does not
    fetch has the block index of the point before, and the body left that block in place. -/
theorem before_in_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in (c : Dev nD) (t : Fin cfg0.N) (d) : (dats m 0 c).before 0 t d = iblk m c 0 t :=
  before_in_of m (dats m 0 c) (A_eq m c 0) (after_in m c) t d

/-- What the body is called with at point t: the region's invariant, nothing owed, and the two current staging buffers, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's buffer holds its block, so the triple above applies; the invariant and what is owed
    pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after_in, after_out]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the region, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution terminates; the pipeline's arrays end at what the proof data says, every other unscoped
    buffer as the lines after the region leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: the run ends with every argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (tail_arg0 m c),
    ((h c).2 main_arg1 (Pipeline.mem_restRefs_of main_arg1 (by decide) (by decide))).trans (tail_arg1 m c),
    ((h c).2 main_arg2 (Pipeline.mem_restRefs_of main_arg2 (by decide) (by decide))).trans (tail_arg2 m c),
    ((h c).2 main_arg3 (Pipeline.mem_restRefs_of main_arg3 (by decide) (by decide))).trans (tail_arg3 m c),
    ((h c).2 main_arg4 (Pipeline.mem_restRefs_of main_arg4 (by decide) (by decide))).trans (tail_arg4 m c),
    ((h c).2 main_arg5 (Pipeline.mem_restRefs_of main_arg5 (by decide) (by decide))).trans (tail_arg5 m c),
    ((h c).2 main_arg6 (Pipeline.mem_restRefs_of main_arg6 (by decide) (by decide))).trans (tail_arg6 m c),
    ((h c).2 main_arg7 (Pipeline.mem_restRefs_of main_arg7 (by decide) (by decide))).trans (tail_arg7 m c),
    ((h c).2 main_arg8 (Pipeline.mem_restRefs_of main_arg8 (by decide) (by decide))).trans (tail_arg8 m c)⟩) (run_main m ρ)

end Cert.Kernel.Hand

end
-- ==== Proof.KData.lean ====
/-
  The average-pool region's proof data: what each window's staging buffer holds after the body at a grid point.
  The input window's buffer keeps block t of the relaid input (rows 256·t … 256·t + 255); the output window's buffer
  is overwritten whole by the pooled row of that block.
-/
import proofs.«413852_j23957327577370_3_alg».proof.Proof.Gen.KernelIdeal.Launch
import proofs.«413852_j23957327577370_3_alg».proof.Proof.Gen.KernelIdeal.Skeleton
import proofs.«413852_j23957327577370_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The host lines after the region, stretch by stretch. -/
abbrev tailOps : List (List (HloOp τ sig (Elt F))) := [hostOps1, hostOps1_1, hostOps1_2, hostOps1_3, hostOps1_4]

/-- Core c's buffer contents when the region is entered: the launch contents after the one relaying line. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole input block and the whole output row, as rectangles. -/
abbrev rIn : Rect S256x16384 := Rect.unit (s := S256x16384) ![0, 0] S256x16384.size inb_S256x16384_S256x16384_0_0
abbrev rOut : Rect S1x1x256 := Rect.unit (s := S1x1x256) ![0, 0, 0] S1x1x256.size inb_S1x1x256_S1x1x256_0_0_0

/-- The output buffer after the body: its one store, of the pooled row of the loaded block. -/
def outRow (x0 : Vec F S256x16384 .f32) : Vec F S1x1x256 .f32 :=
  View.canon [⟨rOut, k0_pay1 (View.ld x0 rIn)⟩]

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outRow (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = iblk m c 0 t := by dsimp only [dats]
theorem after_out (c : Dev nD) (t : Fin cfg0.N) : (dats m 0 c).after 1 t = outRow (iblk m c 0 t) := by dsimp only [dats]

end Cert.KernelIdeal.Hand

end
-- ==== Proof.KFrame.lean ====
/-
  The average-pool program runs to the end, faults nowhere and leaves its inputs unchanged.
-/
import proofs.«413852_j23957327577370_3_alg».proof.Proof.KData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The lines around the region

  One line relays the input before the region; eighty-six lines follow it, in five stretches. Each line writes the one buffer
  of its own result, reads buffers of the core only, and allocates nothing. -/

/-- The buffers the frame speaks of: the region's two arrays (the relaid input, the pooled rows) and the nine arguments. -/
abbrev keptRefs : List (Ref sig .tc) :=
  [main_v0, main_v1, main_arg0, main_arg1, main_arg2, main_arg3, main_arg4, main_arg5, main_arg6, main_arg7, main_arg8]

/-- No line allocates a buffer. -/
theorem fresh0 : (hostOps0 : List (HloOp τ sig (Elt F))).Forall fun op => op.fresh = ∅ := by
  simp only [hostOps0, List.Forall]; repeat' constructor
theorem fresh1 : (hostOps1 : List (HloOp τ sig (Elt F))).Forall fun op => op.fresh = ∅ := by
  simp only [hostOps1, List.Forall]; repeat' constructor
theorem fresh1_1 : (hostOps1_1 : List (HloOp τ sig (Elt F))).Forall fun op => op.fresh = ∅ := by
  simp only [hostOps1_1, List.Forall]; repeat' constructor
theorem fresh1_2 : (hostOps1_2 : List (HloOp τ sig (Elt F))).Forall fun op => op.fresh = ∅ := by
  simp only [hostOps1_2, List.Forall]; repeat' constructor
theorem fresh1_3 : (hostOps1_3 : List (HloOp τ sig (Elt F))).Forall fun op => op.fresh = ∅ := by
  simp only [hostOps1_3, List.Forall]; repeat' constructor
theorem fresh1_4 : (hostOps1_4 : List (HloOp τ sig (Elt F))).Forall fun op => op.fresh = ∅ := by
  simp only [hostOps1_4, List.Forall]; repeat' constructor

/-- No line after the region writes a buffer the frame speaks of: a line writes its own result only, and no result of a
    later line is an array of the region or an argument. Stretch by stretch. -/
theorem keep1 : (hostOps1 : List (HloOp τ sig (Elt F))).Forall fun op => keptRefs.Forall fun b => Proc.devRef .tc b ∉ op.writes := by
  simp only [hostOps1, keptRefs, List.Forall, StableHlo.nullary_writes, StableHlo.unary_writes, StableHlo.binary_writes, StableHlo.ternary_writes, StableHlo.reshape_writes, Finset.mem_singleton]
  repeat' apply And.intro
  all_goals exact StableHlo.devRef_ne_of_ne (by decide)
theorem keep1_1 : (hostOps1_1 : List (HloOp τ sig (Elt F))).Forall fun op => keptRefs.Forall fun b => Proc.devRef .tc b ∉ op.writes := by
  simp only [hostOps1_1, keptRefs, List.Forall, StableHlo.nullary_writes, StableHlo.unary_writes, StableHlo.binary_writes, StableHlo.ternary_writes, StableHlo.reshape_writes, Finset.mem_singleton]
  repeat' apply And.intro
  all_goals exact StableHlo.devRef_ne_of_ne (by decide)
theorem keep1_2 : (hostOps1_2 : List (HloOp τ sig (Elt F))).Forall fun op => keptRefs.Forall fun b => Proc.devRef .tc b ∉ op.writes := by
  simp only [hostOps1_2, keptRefs, List.Forall, StableHlo.nullary_writes, StableHlo.unary_writes, StableHlo.binary_writes, StableHlo.ternary_writes, StableHlo.reshape_writes, Finset.mem_singleton]
  repeat' apply And.intro
  all_goals exact StableHlo.devRef_ne_of_ne (by decide)
theorem keep1_3 : (hostOps1_3 : List (HloOp τ sig (Elt F))).Forall fun op => keptRefs.Forall fun b => Proc.devRef .tc b ∉ op.writes := by
  simp only [hostOps1_3, keptRefs, List.Forall, StableHlo.nullary_writes, StableHlo.unary_writes, StableHlo.binary_writes, StableHlo.ternary_writes, StableHlo.reshape_writes, Finset.mem_singleton]
  repeat' apply And.intro
  all_goals exact StableHlo.devRef_ne_of_ne (by decide)
theorem keep1_4 : (hostOps1_4 : List (HloOp τ sig (Elt F))).Forall fun op => keptRefs.Forall fun b => Proc.devRef .tc b ∉ op.writes := by
  simp only [hostOps1_4, keptRefs, List.Forall, StableHlo.nullary_writes, StableHlo.unary_writes, StableHlo.binary_writes, StableHlo.ternary_writes, StableHlo.reshape_writes, Finset.mem_singleton]
  repeat' apply And.intro
  all_goals exact StableHlo.devRef_ne_of_ne (by decide)

/-- The same, over all five stretches at once. -/
theorem tail_keeps (b : Ref sig .tc) (hb : b ∈ keptRefs) : ∀ ops ∈ (tailOps : List (List (HloOp τ sig (Elt F)))), ∀ op ∈ ops,
    Proc.devRef .tc b ∉ op.writes := by
  intro ops hops op hop
  simp only [List.mem_cons, List.mem_nil_iff, or_false] at hops
  rcases hops with rfl | rfl | rfl | rfl | rfl
  · exact List.forall_iff_forall_mem.mp (List.forall_iff_forall_mem.mp keep1 op hop) b hb
  · exact List.forall_iff_forall_mem.mp (List.forall_iff_forall_mem.mp keep1_1 op hop) b hb
  · exact List.forall_iff_forall_mem.mp (List.forall_iff_forall_mem.mp keep1_2 op hop) b hb
  · exact List.forall_iff_forall_mem.mp (List.forall_iff_forall_mem.mp keep1_3 op hop) b hb
  · exact List.forall_iff_forall_mem.mp (List.forall_iff_forall_mem.mp keep1_4 op hop) b hb

/-- The program is the relaying line, the region, then the five stretches: it reduces to the region continued by the
    stretches, entered at the contents the relaying line leaves. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps (by simp only [List.Forall]; exact hostOps0_sub)
    (by simp only [List.Forall]; exact fresh0) main_chain

/-- The later lines touch unscoped buffers of the core only: the region's arrays or buffers that bypass it. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp fresh1) op hop
  · exact (List.forall_iff_forall_mem.mp fresh1_1) op hop
  · exact (List.forall_iff_forall_mem.mp fresh1_2) op hop
  · exact (List.forall_iff_forall_mem.mp fresh1_3) op hop
  · exact (List.forall_iff_forall_mem.mp fresh1_4) op hop

/-- They write neither array of the region. -/
theorem sfx_keeps : ∀ ops ∈ (tailOps : List (List (HloOp τ sig (Elt F)))), ∀ op ∈ ops,
    ∀ w, Proc.devRef .tc (Pipeline.arrRef spec0 w) ∉ op.writes := by
  intro ops hops op hop w
  fin_cases w
  · exact tail_keeps main_v0 (by decide) ops hops op hop
  · exact tail_keeps main_v1 (by decide) ops hops op hop

/-- A buffer other than the relaid input is entered by the region as launched: the relaying line writes the relaid input only. -/
theorem entry_of_ne (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.flatten_cons, List.flatten_nil, List.append_nil, List.Forall, StableHlo.reshape_writes, Finset.mem_singleton]
    exact StableHlo.devRef_ne_of_ne hb))

/-- A buffer the frame speaks of that is no array of the region ends as the region found it: the region leaves it alone
    and no later line writes it. -/
theorem tail_of_kept (c : Dev nD) (b : Ref sig .tc) (hb : b ∈ keptRefs) (hne : ∀ w, Pipeline.arrRef spec0 w ≠ b) :
    Pipeline.afterTail₀ cfgs (dats m) 0 (V0 m) tailOps c b = V m c b := by
  unfold Pipeline.afterTail₀
  rw [StableHlo.after_of_forall_not_mem (b := Proc.devRef .tc b) _ _ (fun op hop => by
      obtain ⟨ops, hops, hop'⟩ := List.mem_flatten.mp hop
      exact tail_keeps b hb ops hops op hop'),
    Pipeline.withArrays_of_ne _ c (V0 m c) _ b (by exact hne)]

/-- The region finds the relaid input as the reshape of the launched input. -/
theorem entry_v0 (c : Dev nD) : V m c main_v0 = shapeCast S8192x16384 (m ((c : Thread nD τ).loc main_arg0)) shapeCasts_S16x512x128x128_S8192x16384 := by
  dsimp only [V, V0, hostOps0]
  simp only [List.flatten_cons, List.flatten_nil, List.append_nil]
  after_results
  rfl

/-- The one line before the region does not write argument 0. -/
theorem entry_arg0 (c : Dev nD) : V m c main_arg0 = m ((c : Thread nD τ).loc main_arg0) :=
  entry_of_ne m c main_arg0 (by decide)

/-- The one line before the region does not write argument 1. -/
theorem entry_arg1 (c : Dev nD) : V m c main_arg1 = m ((c : Thread nD τ).loc main_arg1) :=
  entry_of_ne m c main_arg1 (by decide)

/-- The one line before the region does not write argument 2. -/
theorem entry_arg2 (c : Dev nD) : V m c main_arg2 = m ((c : Thread nD τ).loc main_arg2) :=
  entry_of_ne m c main_arg2 (by decide)

/-- The one line before the region does not write argument 3. -/
theorem entry_arg3 (c : Dev nD) : V m c main_arg3 = m ((c : Thread nD τ).loc main_arg3) :=
  entry_of_ne m c main_arg3 (by decide)

/-- The one line before the region does not write argument 4. -/
theorem entry_arg4 (c : Dev nD) : V m c main_arg4 = m ((c : Thread nD τ).loc main_arg4) :=
  entry_of_ne m c main_arg4 (by decide)

/-- The one line before the region does not write argument 5. -/
theorem entry_arg5 (c : Dev nD) : V m c main_arg5 = m ((c : Thread nD τ).loc main_arg5) :=
  entry_of_ne m c main_arg5 (by decide)

/-- The one line before the region does not write argument 6. -/
theorem entry_arg6 (c : Dev nD) : V m c main_arg6 = m ((c : Thread nD τ).loc main_arg6) :=
  entry_of_ne m c main_arg6 (by decide)

/-- The one line before the region does not write argument 7. -/
theorem entry_arg7 (c : Dev nD) : V m c main_arg7 = m ((c : Thread nD τ).loc main_arg7) :=
  entry_of_ne m c main_arg7 (by decide)

/-- The one line before the region does not write argument 8. -/
theorem entry_arg8 (c : Dev nD) : V m c main_arg8 = m ((c : Thread nD τ).loc main_arg8) :=
  entry_of_ne m c main_arg8 (by decide)

/-- No line after the region writes argument 0. -/
theorem tail_arg0 (c : Dev nD) : Pipeline.afterTail₀ cfgs (dats m) 0 (V0 m) tailOps c main_arg0 = m ((c : Thread nD τ).loc main_arg0) :=
  (tail_of_kept m c main_arg0 (by decide) (by decide)).trans (entry_arg0 m c)

/-- No line after the region writes argument 1. -/
theorem tail_arg1 (c : Dev nD) : Pipeline.afterTail₀ cfgs (dats m) 0 (V0 m) tailOps c main_arg1 = m ((c : Thread nD τ).loc main_arg1) :=
  (tail_of_kept m c main_arg1 (by decide) (by decide)).trans (entry_arg1 m c)

/-- No line after the region writes argument 2. -/
theorem tail_arg2 (c : Dev nD) : Pipeline.afterTail₀ cfgs (dats m) 0 (V0 m) tailOps c main_arg2 = m ((c : Thread nD τ).loc main_arg2) :=
  (tail_of_kept m c main_arg2 (by decide) (by decide)).trans (entry_arg2 m c)

/-- No line after the region writes argument 3. -/
theorem tail_arg3 (c : Dev nD) : Pipeline.afterTail₀ cfgs (dats m) 0 (V0 m) tailOps c main_arg3 = m ((c : Thread nD τ).loc main_arg3) :=
  (tail_of_kept m c main_arg3 (by decide) (by decide)).trans (entry_arg3 m c)

/-- No line after the region writes argument 4. -/
theorem tail_arg4 (c : Dev nD) : Pipeline.afterTail₀ cfgs (dats m) 0 (V0 m) tailOps c main_arg4 = m ((c : Thread nD τ).loc main_arg4) :=
  (tail_of_kept m c main_arg4 (by decide) (by decide)).trans (entry_arg4 m c)

/-- No line after the region writes argument 5. -/
theorem tail_arg5 (c : Dev nD) : Pipeline.afterTail₀ cfgs (dats m) 0 (V0 m) tailOps c main_arg5 = m ((c : Thread nD τ).loc main_arg5) :=
  (tail_of_kept m c main_arg5 (by decide) (by decide)).trans (entry_arg5 m c)

/-- No line after the region writes argument 6. -/
theorem tail_arg6 (c : Dev nD) : Pipeline.afterTail₀ cfgs (dats m) 0 (V0 m) tailOps c main_arg6 = m ((c : Thread nD τ).loc main_arg6) :=
  (tail_of_kept m c main_arg6 (by decide) (by decide)).trans (entry_arg6 m c)

/-- No line after the region writes argument 7. -/
theorem tail_arg7 (c : Dev nD) : Pipeline.afterTail₀ cfgs (dats m) 0 (V0 m) tailOps c main_arg7 = m ((c : Thread nD τ).loc main_arg7) :=
  (tail_of_kept m c main_arg7 (by decide) (by decide)).trans (entry_arg7 m c)

/-- No line after the region writes argument 8. -/
theorem tail_arg8 (c : Dev nD) : Pipeline.afterTail₀ cfgs (dats m) 0 (V0 m) tailOps c main_arg8 = m ((c : Thread nD τ).loc main_arg8) :=
  (tail_of_kept m c main_arg8 (by decide) (by decide)).trans (entry_arg8 m c)

/-! ## The body at a grid point

  The body loads the whole input block, loads the output buffer without using it, and stores the pooled row over the whole
  output buffer. So the input buffer is left as found, and the output buffer holds the pooled row of the block. -/

/-- The one store fills the output buffer: its rectangle is the whole buffer. -/
theorem cover_out (p0 : Vec F S1x1x256 .f32) (y : S1x1x256.Idx) :
    ∃ pc ∈ ([⟨rOut, p0⟩] : List (View.Piece (Elt F) S1x1x256 .f32)), y ∈ pc.1.set :=
  View.cover_of_tiled [⟨rOut, p0⟩] S1x1x256.size (by rfl) y

set_option maxHeartbeats 1000000 in
/-- The body on whole staging buffers, the input's at read contents x0 and the output's at anything, runs to the
    continuation holding the input's as it was and the output's at the pooled row of x0. -/
theorem sound_kernel (c : Dev nD) (E : Set ℕ) (i : grid0.Coords) (arg1 : Memref sig .tc .vmem S256x16384 .f32) (harg1 : arg1.IsWhole)
    (arg2 : Memref sig .tc .vmem S1x1x256 .f32) (harg2 : arg2.IsWhole)
    (x0 : Vec F S256x16384 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outRow x0)) -∗ K ⟨⟩))
      ⊢ wp frame (wpE (defs₀ (F := F)) Variants.none c none) E (cc0__avgpool_kernel i arg1 harg1 arg2 harg2) K := by
  simp only [cc0__avgpool_kernel_eq_skeleton]; unfold cc0__avgpool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_out _)

/-- The input window's current staging buffer holds its block at every point, fetched there or not: a point that does not
    fetch has the block index of the point before, and the body left that block in place. -/
theorem before_in_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in (c : Dev nD) (t : Fin cfg0.N) (d) : (dats m 0 c).before 0 t d = iblk m c 0 t :=
  before_in_of m (dats m 0 c) (A_eq m c 0) (after_in m c) t d

/-- What the body is called with at point t: the region's invariant, nothing owed, and the two current staging buffers, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's buffer holds its block, so the triple above applies; the invariant and what is owed
    pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after_in, after_out]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the region, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution terminates; the pipeline's arrays end at what the proof data says, every other unscoped
    buffer as the lines after the region leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: the run ends with every argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (tail_arg0 m c),
    ((h c).2 main_arg1 (Pipeline.mem_restRefs_of main_arg1 (by decide) (by decide))).trans (tail_arg1 m c),
    ((h c).2 main_arg2 (Pipeline.mem_restRefs_of main_arg2 (by decide) (by decide))).trans (tail_arg2 m c),
    ((h c).2 main_arg3 (Pipeline.mem_restRefs_of main_arg3 (by decide) (by decide))).trans (tail_arg3 m c),
    ((h c).2 main_arg4 (Pipeline.mem_restRefs_of main_arg4 (by decide) (by decide))).trans (tail_arg4 m c),
    ((h c).2 main_arg5 (Pipeline.mem_restRefs_of main_arg5 (by decide) (by decide))).trans (tail_arg5 m c),
    ((h c).2 main_arg6 (Pipeline.mem_restRefs_of main_arg6 (by decide) (by decide))).trans (tail_arg6 m c),
    ((h c).2 main_arg7 (Pipeline.mem_restRefs_of main_arg7 (by decide) (by decide))).trans (tail_arg7 m c),
    ((h c).2 main_arg8 (Pipeline.mem_restRefs_of main_arg8 (by decide) (by decide))).trans (tail_arg8 m c)⟩) (run_main m ρ)

end Cert.KernelIdeal.Hand

end
-- ==== Proof.Spec.lean ====
/-
  The mathematics of the certificate, stated once over literal shapes and importing neither program.

  A gate of two binarised linear layers around a batch normalisation and a PReLU, fed by a global average pool:
    p[b,c]   = mean over the 128×128 plane of x[b,c,·,·]
    h        = binLin p  move1 w1          (sign of the shifted input against scale·sign of the weights)
    h'       = bnPrelu h γ β lbias a        (batch statistics over the 16 rows, affine, bias, PReLU)
    out      = binLin h' move2 w2, with two unit axes appended.
  The kernel computes the pool block by block (32 blocks of 256 rows of the 8192×16384 relaid input, each row summed
  and scaled by 2⁻¹⁴) and the rest on the host; the reference divides the plane sums by 16384 and writes both
  binarisations in their straight-through form (s − t) + t, where t is a bounded surrogate: a clipped polynomial for the
  activations, the weights clipped to [−1, 1] for the weights. Over the extended reals (s − t) + t = s whenever t is
  finite, so both layers agree; the pool agrees because multiplying by 2⁻¹⁴ is dividing by 16384 and a sum does not
  depend on how its terms are arranged.
-/
import Idealize.ShloMosaic.PureOps
import Idealize.ShloMosaic.Lib.ValueIdx

noncomputable section

namespace Cert.Spec

open Idealize.ShloMosaic Idealize.ShloMosaic.ValueIdx

/-! ## Shapes and the side conditions of the operations over them -/

abbrev S16x512x128x128 : Shape := ⟨4, ![16, 512, 128, 128]⟩
abbrev S1x512 : Shape := ⟨2, ![1, 512]⟩
abbrev S512x512 : Shape := ⟨2, ![512, 512]⟩
abbrev S512 : Shape := ⟨1, ![512]⟩
abbrev S8192x16384 : Shape := ⟨2, ![8192, 16384]⟩
abbrev S32x1x256 : Shape := ⟨3, ![32, 1, 256]⟩
abbrev S256x16384 : Shape := ⟨2, ![256, 16384]⟩
abbrev S1x1x256 : Shape := ⟨3, ![1, 1, 256]⟩
abbrev S256 : Shape := ⟨1, ![256]⟩
abbrev S256x1 : Shape := ⟨2, ![256, 1]⟩
abbrev S1x256 : Shape := ⟨2, ![1, 256]⟩
abbrev S8192 : Shape := ⟨1, ![8192]⟩
abbrev S16x512 : Shape := ⟨2, ![16, 512]⟩
abbrev S_ : Shape := ⟨0, ![]⟩
abbrev S512x1 : Shape := ⟨2, ![512, 1]⟩
abbrev S16x512x1x1 : Shape := ⟨4, ![16, 512, 1, 1]⟩

theorem shapeCasts_S16x512x128x128_S8192x16384 : S16x512x128x128.ShapeCasts S8192x16384 := by decide
theorem shapeCasts_S256x16384_S256x16384 : S256x16384.ShapeCasts S256x16384 := by decide
theorem reduces_S256x16384_S256 : S256x16384.Reduces [1] S256 := by decide
theorem shapeCasts_S256_S256x1 : S256.ShapeCasts S256x1 := by decide
theorem transposes_S256x1_p1_0_S1x256 : S256x1.Transposes [1, 0] S1x256 := by decide
theorem shapeCasts_S1x256_S1x1x256 : S1x256.ShapeCasts S1x1x256 := by decide
theorem shapeCasts_S32x1x256_S8192 : S32x1x256.ShapeCasts S8192 := by decide
theorem shapeCasts_S8192_S16x512 : S8192.ShapeCasts S16x512 := by decide
theorem reducesTo_S16x512x128x128_S16x512_d2_3 : S16x512x128x128.ReducesTo [2, 3] S16x512 := by decide
theorem h_S_ : 0 < S_.numel := by decide
theorem bcast_S_S16x512 : S_.BroadcastsInDim S16x512 (![] : Fin 0 → Fin S16x512.rank) := by decide
theorem bcast_S1x512_S16x512_0_1 : S1x512.BroadcastsInDim S16x512 (![0, 1] : Fin 2 → Fin S16x512.rank) := by decide
theorem reducesTo_S512x512_S512_d1 : S512x512.ReducesTo [1] S512 := by decide
theorem bcast_S512_S512x1_0 : S512.BroadcastsInDim S512x1 (![0] : Fin 1 → Fin S512x1.rank) := by decide
theorem bcast_S_S512x1 : S_.BroadcastsInDim S512x1 (![] : Fin 0 → Fin S512x1.rank) := by decide
theorem bcast_S512x1_S512x512_0_1 : S512x1.BroadcastsInDim S512x512 (![0, 1] : Fin 2 → Fin S512x512.rank) := by decide
theorem bcast_S_S512x512 : S_.BroadcastsInDim S512x512 (![] : Fin 0 → Fin S512x512.rank) := by decide
theorem transposes_S512x512_S512x512_1_0 : S512x512.Transposes [1, 0] S512x512 := by decide
theorem reducesTo_S16x512_S512_d0 : S16x512.ReducesTo [0] S512 := by decide
theorem bcast_S_S512 : S_.BroadcastsInDim S512 (![] : Fin 0 → Fin S512.rank) := by decide
theorem bcast_S512_S1x512_1 : S512.BroadcastsInDim S1x512 (![1] : Fin 1 → Fin S1x512.rank) := by decide
theorem bcast_S_S1x512 : S_.BroadcastsInDim S1x512 (![] : Fin 0 → Fin S1x512.rank) := by decide
theorem bcast_S16x512_S16x512x1x1_0_1 : S16x512.BroadcastsInDim S16x512x1x1 (![0, 1] : Fin 2 → Fin S16x512x1x1.rank) := by decide
theorem dot_wf : DotDims.WF S16x512 S512x512 S16x512 [1] [0] [0] [1] [] [] := by decide

/-- The contraction of a [16,512] table with a [512,512] matrix over the table's columns and the matrix's rows. -/
def dotDims : DotDims S16x512 S512x512 S16x512 where
  lhsContracting := [1]
  rhsContracting := [0]
  lhsNonContracting := [0]
  rhsNonContracting := [1]
  lhsBatch := []
  rhsBatch := []
  wf := dot_wf

variable {F : FTy → Type} [FloatOps F]

/-! ## The pool -/

/-- One block of 256 rows of the relaid input, each row summed over its 16384 entries and scaled by 2⁻¹⁴, laid out as a
    [1,1,256] row: what the kernel body stores from the block it loaded. -/
def poolBlock (v0 : Vec F S256x16384 .f32) : FVec F S1x1x256 .f32 :=
  have v1 : FVec F S256x16384 .f32 := shapeCast S256x16384 v0 shapeCasts_S256x16384_S256x16384
  have v2 : FVec F S256 .f32 := multiReduction .add [1] S256 v1 0x00000000#32 reduces_S256x16384_S256 (.inl rfl) rfl
  have v3 : FVec F S256x1 .f32 := shapeCast S256x1 v2 shapeCasts_S256_S256x1
  have v4 : FVec F S1x256 .f32 := transpose S1x256 [1, 0] v3 transposes_S256x1_p1_0_S1x256
  have cst_1 : F .f32 := Scalar.ofBits .f32 0x38800000#32
  have v5 : FVec F S1x256 .f32 := broadcast S1x256 cst_1
  have v6 : FVec F S1x256 .f32 := mulf v4 v5
  shapeCast S1x1x256 v6 shapeCasts_S1x256_S1x1x256

/-- Rows 256·t … 256·t + 255 of the relaid input. -/
def rowBlock (x2 : FVec F S8192x16384 .f32) (t : Fin 32) : Vec F S256x16384 .f32 :=
  fun y => x2 (ix2 (⟨256 * t.val + (y 0).val, by have h0 : (y 0).val < 256 := (y 0).isLt; have ht := t.isLt; omega⟩ : Fin 8192) (⟨(y 1).val, (y 1).isLt⟩ : Fin 16384))

/-- The kernel's pooled array: entry (t, 0, j) is block t's pooled row at j. -/
def poolBlocks (x2 : FVec F S8192x16384 .f32) : FVec F S32x1x256 .f32 :=
  fun i => poolBlock (rowBlock x2 (⟨(i 0).val, (i 0).isLt⟩ : Fin 32)) (ix3 (0 : Fin 1) (0 : Fin 1) (⟨(i 2).val, (i 2).isLt⟩ : Fin 256))

/-- The input relaid as 8192 rows of 16384. -/
def relaid (x : FVec F S16x512x128x128 .f32) : FVec F S8192x16384 .f32 :=
  shapeCast S8192x16384 x shapeCasts_S16x512x128x128_S8192x16384

/-- The pooled array relaid as the [16,512] table. -/
def pooledTable (v1 : FVec F S32x1x256 .f32) : FVec F S16x512 .f32 :=
  shapeCast S16x512 (shapeCast S8192 v1 shapeCasts_S32x1x256_S8192) shapeCasts_S8192_S16x512

/-- The reference's pool: the sum over each 128×128 plane divided by 16384. -/
def poolMean (x : FVec F S16x512x128x128 .f32) : FVec F S16x512 .f32 :=
  Host.divf (Host.reduceAdd x (constant S_ .f32 0x00000000#32) reducesTo_S16x512x128x128_S16x512_d2_3 h_S_)
    (broadcastInDim S16x512 ![] bcast_S_S16x512 (constant S_ .f32 0x46800000#32))

/-! ## The binarised linear layer -/

/-- scale·sign(w): each row's mean absolute value times the signs of the row. -/
def scaledSign (w : FVec F S512x512 .f32) : FVec F S512x512 .f32 :=
  mulf (broadcastInDim S512x512 ![0, 1] bcast_S512x1_S512x512_0_1
      (Host.divf (broadcastInDim S512x1 ![0] bcast_S512_S512x1_0
          (Host.reduceAdd (Host.absf w) (constant S_ .f32 0x00000000#32) reducesTo_S512x512_S512_d1 h_S_))
        (broadcastInDim S512x1 ![] bcast_S_S512x1 (constant S_ .f32 0x44000000#32))))
    (Host.sign w)

/-- The shifted input p + move. -/
def shifted (p : FVec F S16x512 .f32) (mb : FVec F S1x512 .f32) : FVec F S16x512 .f32 :=
  addf p (broadcastInDim S16x512 ![0, 1] bcast_S1x512_S16x512_0_1 mb)

/-- The layer from its two binarised factors: the activations against the transposed weights. -/
def layer (a : FVec F S16x512 .f32) (bw : FVec F S512x512 .f32) : FVec F S16x512 .f32 :=
  Host.dotGeneral dotDims none a (transpose S512x512 [1, 0] bw transposes_S512x512_S512x512_1_0)

/-- The kernel's layer: sign(p + move) · (scale·sign w)ᵀ. -/
def binLin (p : FVec F S16x512 .f32) (mb : FVec F S1x512 .f32) (w : FVec F S512x512 .f32) : FVec F S16x512 .f32 :=
  layer (Host.sign (shifted p mb)) (scaledSign w)

/-- The bounded surrogate of the sign: −1 below −1, x² + 2x on [−1, 0), −x² + 2x on [0, 1), 1 from 1 on. -/
def surrogate (x : FVec F S16x512 .f32) : FVec F S16x512 .f32 :=
  select (cmpf .olt x (broadcastInDim S16x512 ![] bcast_S_S16x512 (constant S_ .f32 0xBF800000#32)))
    (broadcastInDim S16x512 ![] bcast_S_S16x512 (id (constant S_ .f32 0xBF800000#32)))
    (select (cmpf .olt x (broadcastInDim S16x512 ![] bcast_S_S16x512 (constant S_ .f32 0x00000000#32)))
      (addf (mulf x x) (mulf (broadcastInDim S16x512 ![] bcast_S_S16x512 (constant S_ .f32 0x40000000#32)) x))
      (select (cmpf .olt x (broadcastInDim S16x512 ![] bcast_S_S16x512 (constant S_ .f32 0x3F800000#32)))
        (addf (mulf (Host.negf x) x) (mulf (broadcastInDim S16x512 ![] bcast_S_S16x512 (constant S_ .f32 0x40000000#32)) x))
        (broadcastInDim S16x512 ![] bcast_S_S16x512 (id (constant S_ .f32 0x3F800000#32)))))

/-- The straight-through sign: (sign x − surrogate x) + surrogate x. -/
def signSte (x : FVec F S16x512 .f32) : FVec F S16x512 .f32 :=
  addf (subf (Host.sign x) (surrogate x)) (surrogate x)

/-- The weights clipped to [−1, 1]. -/
def clipped (w : FVec F S512x512 .f32) : FVec F S512x512 .f32 :=
  minimumf (broadcastInDim S512x512 ![] bcast_S_S512x512 (id (constant S_ .f32 0x3F800000#32)))
    (maximumf (broadcastInDim S512x512 ![] bcast_S_S512x512 (id (constant S_ .f32 0xBF800000#32))) w)

/-- The straight-through binarised weights: (scale·sign w − clip w) + clip w. -/
def scaledSignSte (w : FVec F S512x512 .f32) : FVec F S512x512 .f32 :=
  addf (subf (scaledSign w) (clipped w)) (clipped w)

/-- The reference's layer, both factors in straight-through form. -/
def binLinSte (p : FVec F S16x512 .f32) (mb : FVec F S1x512 .f32) (w : FVec F S512x512 .f32) : FVec F S16x512 .f32 :=
  layer (signSte (shifted p mb)) (scaledSignSte w)

/-! ## Batch normalisation, bias and PReLU (the same text in both programs) -/

/-- The column means over the 16 rows. -/
def colMean (h : FVec F S16x512 .f32) : FVec F S512 .f32 :=
  Host.divf (Host.reduceAdd h (constant S_ .f32 0x00000000#32) reducesTo_S16x512_S512_d0 h_S_)
    (broadcastInDim S512 ![] bcast_S_S512 (constant S_ .f32 0x41800000#32))

/-- 16 minus the degrees of freedom removed (none), as the variance's divisor. -/
def varDivisor : FVec F S_ .f32 :=
  subf (constant S_ .f32 0x41800000#32) (sitofp .f32 (constantI S_ 32 0#32))

/-- The column variances over the 16 rows, as jnp.var writes them (guarded by the divisor being positive). -/
def colVar (h : FVec F S16x512 .f32) : FVec F S512 .f32 :=
  have d : FVec F S16x512 .f32 := subf h (broadcastInDim S16x512 ![0, 1] bcast_S1x512_S16x512_0_1
    (Host.divf (broadcastInDim S1x512 ![1] bcast_S512_S1x512_1 (Host.reduceAdd h (constant S_ .f32 0x00000000#32) reducesTo_S16x512_S512_d0 h_S_))
      (broadcastInDim S1x512 ![] bcast_S_S1x512 (constant S_ .f32 0x41800000#32))))
  select (broadcastInDim S512 ![] bcast_S_S512 (cmpf .ogt (varDivisor (F := F)) (constant S_ .f32 0x00000000#32)))
    (Host.divf (Host.reduceAdd (mulf d d) (constant S_ .f32 0x00000000#32) reducesTo_S16x512_S512_d0 h_S_)
      (broadcastInDim S512 ![] bcast_S_S512 (varDivisor (F := F))))
    (broadcastInDim S512 ![] bcast_S_S512 (id (constant S_ .f32 0x7FC00000#32)))

/-- A [512] vector laid along the columns of a [16,512] table. -/
def alongCols (v : FVec F S512 .f32) : FVec F S16x512 .f32 :=
  broadcastInDim S16x512 ![0, 1] bcast_S1x512_S16x512_0_1 (broadcastInDim S1x512 ![1] bcast_S512_S1x512_1 v)

/-- (h − mean)·rsqrt(var + ε)·γ + β + lbias, then PReLU with slope a, from the table, its mean row and its variances. -/
def bnPreluOf (h : FVec F S16x512 .f32) (meanRow : FVec F S1x512 .f32) (var : FVec F S512 .f32) (γ β : FVec F S512 .f32)
    (lb : FVec F S1x512 .f32) (a : FVec F S512 .f32) : FVec F S16x512 .f32 :=
  have z : FVec F S16x512 .f32 :=
    addf (addf (mulf (mulf (subf h (broadcastInDim S16x512 ![0, 1] bcast_S1x512_S16x512_0_1 meanRow))
            (alongCols (Host.rsqrt (addf var (broadcastInDim S512 ![] bcast_S_S512 (constant S_ .f32 0x3727C5AC#32))))))
          (alongCols γ)) (alongCols β))
      (broadcastInDim S16x512 ![0, 1] bcast_S1x512_S16x512_0_1 lb)
  select (cmpf .oge z (broadcastInDim S16x512 ![] bcast_S_S16x512 (constant S_ .f32 0x00000000#32))) z (mulf (alongCols a) z)

/-- The column means as a [1,512] row. -/
def meanRow (h : FVec F S16x512 .f32) : FVec F S1x512 .f32 :=
  broadcastInDim S1x512 ![1] bcast_S512_S1x512_1 (colMean h)

/-- Batch normalisation with the table's own statistics, bias and PReLU. -/
def bnPrelu (h : FVec F S16x512 .f32) (γ β : FVec F S512 .f32) (lb : FVec F S1x512 .f32) (a : FVec F S512 .f32) : FVec F S16x512 .f32 :=
  bnPreluOf h (meanRow h) (colVar h) γ β lb a

/-- Two unit axes appended. -/
def unitAxes (h : FVec F S16x512 .f32) : FVec F S16x512x1x1 .f32 :=
  broadcastInDim S16x512x1x1 ![0, 1] bcast_S16x512_S16x512x1x1_0_1 h

/-! ## The two programs' results -/

/-- The kernel's result from the pooled table. -/
def gateOfPool (p : FVec F S16x512 .f32) (mb1 : FVec F S1x512 .f32) (w1 : FVec F S512x512 .f32) (γ β : FVec F S512 .f32)
    (lb : FVec F S1x512 .f32) (a : FVec F S512 .f32) (mb2 : FVec F S1x512 .f32) (w2 : FVec F S512x512 .f32) : FVec F S16x512x1x1 .f32 :=
  unitAxes (binLin (bnPrelu (binLin p mb1 w1) γ β lb a) mb2 w2)

/-- The reference's result from its pooled table. -/
def gateOfPoolSte (p : FVec F S16x512 .f32) (mb1 : FVec F S1x512 .f32) (w1 : FVec F S512x512 .f32) (γ β : FVec F S512 .f32)
    (lb : FVec F S1x512 .f32) (a : FVec F S512 .f32) (mb2 : FVec F S1x512 .f32) (w2 : FVec F S512x512 .f32) : FVec F S16x512x1x1 .f32 :=
  unitAxes (binLinSte (bnPrelu (binLinSte p mb1 w1) γ β lb a) mb2 w2)

/-- The kernel: pool block by block, relay, then the gate. -/
def kernelGate (x : FVec F S16x512x128x128 .f32) (mb1 : FVec F S1x512 .f32) (w1 : FVec F S512x512 .f32) (γ β : FVec F S512 .f32)
    (lb : FVec F S1x512 .f32) (a : FVec F S512 .f32) (mb2 : FVec F S1x512 .f32) (w2 : FVec F S512x512 .f32) : FVec F S16x512x1x1 .f32 :=
  gateOfPool (pooledTable (poolBlocks (relaid x))) mb1 w1 γ β lb a mb2 w2

/-- The reference: plane means, then the gate in straight-through form. -/
def referenceGate (x : FVec F S16x512x128x128 .f32) (mb1 : FVec F S1x512 .f32) (w1 : FVec F S512x512 .f32) (γ β : FVec F S512 .f32)
    (lb : FVec F S1x512 .f32) (a : FVec F S512 .f32) (mb2 : FVec F S1x512 .f32) (w2 : FVec F S512x512 .f32) : FVec F S16x512x1x1 .f32 :=
  gateOfPoolSte (poolMean x) mb1 w1 γ β lb a mb2 w2

end Cert.Spec

end
-- ==== Proof.KPool.lean ====
/-
  The pooled array after the region: entry (t, 0, j) is the pooled row of block t of the relaid input at j.
-/
import proofs.«413852_j23957327577370_3_alg».proof.Proof.KData
import proofs.«413852_j23957327577370_3_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The zero offsets of a rank-2 rectangle are the constant zero function. -/
theorem pool_zerosIn : (![0, 0] : Fin 2 → Nat) = fun _ => 0 := funext fun a => by fin_cases a <;> rfl
/-- The zero offsets of a rank-3 rectangle are the constant zero function. -/
theorem pool_zerosOut : (![0, 0, 0] : Fin 3 → Nat) = fun _ => 0 := funext fun a => by fin_cases a <;> rfl

/-- The one store covers the whole [1,1,256] buffer and the one load reads the whole [256,16384] block, so what the
    output buffer holds after the body is the pooled row of the loaded block. -/
theorem pool_outRow_eq (x0 : Vec F S256x16384 .f32) : outRow x0 = Cert.Spec.poolBlock x0 := by
  unfold outRow
  rw [View.canon_unit_zero pool_zerosOut]
  simp only [View.ld_unit_zero (S := S256x16384) pool_zerosIn]
  rfl

/-- The two index maps at point t: the input block index is (t, 0), the output block index is (t, 0, 0). -/
theorem pool_index_facts : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, _)

/-- A grid point is one of 32. -/
theorem pool_point_lt (t : Fin cfg0.N) : t.val < 32 := by
  have h := t.isLt
  have hN : cfg0.N = 32 := N_0
  omega

open Idealize.ShloMosaic.ValueIdx in
/-- The input block at point t is rows 256·t … 256·t + 255 of the relaid input: entry (r, k) of the block sits in the
    array at (t·256 + r, 0·16384 + k). -/
theorem pool_iblk_rows (c : Dev nD) (t : Fin cfg0.N) :
    iblk m c 0 t = Cert.Spec.rowBlock (V m c main_v0) ⟨t.val, pool_point_lt t⟩ := by
  obtain ⟨e0, e1, -⟩ := pool_index_facts t
  funext y
  unfold iblk
  rw [View.read_apply]
  show V m c main_v0 (((cfg0.win 0).blk t).view.emb y) = V m c main_v0 (ix2 (⟨256 * t.val + (y 0).val, _⟩ : Fin 8192) (⟨(y 1).val, _⟩ : Fin 16384))
  refine congrArg (V m c main_v0) ?_
  funext a
  apply Fin.ext
  have h0 : (y 0).val < 256 := (y 0).isLt
  have h1 : (y 1).val < 16384 := (y 1).isLt
  match a with
  | ⟨0, _⟩ => show win0_0.index t (0 : Fin 2) * 256 + 1 * (y 0).val = 256 * t.val + (y 0).val; omega
  | ⟨1, _⟩ => show win0_0.index t (1 : Fin 2) * 16384 + 1 * (y 1).val = (y 1).val; omega

open Idealize.ShloMosaic.ValueIdx in
/-- The pooled array read at an entry whose first coordinate is t and whose last coordinate is that of j is block t's
    pooled row at j: the two unit coordinates of j can only be 0. -/
theorem pool_blocks_at (x2 : FVec F Cert.Spec.S8192x16384 .f32) (i : Cert.Spec.S32x1x256.Idx) (t : Fin 32) (j : Cert.Spec.S1x1x256.Idx)
    (h0 : (i 0).val = t.val) (h2 : (i 2).val = (j 2).val) :
    Cert.Spec.poolBlocks x2 i = Cert.Spec.poolBlock (Cert.Spec.rowBlock x2 t) j := by
  have ht : (⟨(i 0).val, (i 0).isLt⟩ : Fin 32) = t := Fin.ext h0
  have hj : ix3 (0 : Fin 1) (0 : Fin 1) (⟨(i 2).val, (i 2).isLt⟩ : Fin 256) = j := by
    funext a
    apply Fin.ext
    have j0 : (j 0).val < 1 := (j 0).isLt
    have j1 : (j 1).val < 1 := (j 1).isLt
    match a with
    | ⟨0, _⟩ => show 0 = (j 0).val; omega
    | ⟨1, _⟩ => show 0 = (j 1).val; omega
    | ⟨2, _⟩ => show (i 2).val = (j 2).val; exact h2
  show Cert.Spec.poolBlock (Cert.Spec.rowBlock x2 (⟨(i 0).val, (i 0).isLt⟩ : Fin 32)) (ix3 (0 : Fin 1) (0 : Fin 1) (⟨(i 2).val, (i 2).isLt⟩ : Fin 256)) = _
  rw [ht, hj]

/-- What point t writes back is block t of the pooled array: entry (0, 0, k) of the written row sits in the output
    array at (t·1 + 0, 0, 0·256 + k), where the pooled array holds block t's pooled row at k. -/
theorem pool_flushed_eq (c : Dev nD) (t : Fin cfg0.N) :
    (dats m 0 c).flushed 1 t = ((cfg0.win 1).blk t).view.read (Elt F) (Cert.Spec.poolBlocks (V m c main_v0)) := by
  show (cfg0.win 1).cut (grid0.coords t) ((dats m 0 c).after 1 t) = _
  rw [after_out, pool_outRow_eq, pool_iblk_rows]
  obtain ⟨-, -, e0, e1, e2⟩ := pool_index_facts t
  funext j
  rw [View.read_apply]
  have j0 : (j 0).val < 1 := (j 0).isLt
  refine (pool_blocks_at (V m c main_v0) _ ⟨t.val, pool_point_lt t⟩ _ ?_ ?_).symm
  · show win0_1.index t (0 : Fin 3) * 1 + 1 * (j 0).val = t.val
    omega
  · show win0_1.index t (2 : Fin 3) * 256 + 1 * (j 2).val = (j 2).val
    omega

/-- An entry of the output array lies in point t's block exactly when each coordinate lies in the block's range on
    its axis. -/
theorem pool_mem_block (t : Fin cfg0.N) (i : S32x1x256.Idx) :
    i ∈ ((cfg0.win 1).blk t).view.set ↔ ∀ a : Fin 3, win0_1.index t a * S1x1x256.size a ≤ (i a).val ∧ (i a).val < win0_1.index t a * S1x1x256.size a + S1x1x256.size a := by
  show i ∈ ((View.whole main_v1).slice (win0_1.rect t)).set ↔ _
  rw [View.set_slice_whole, Rect.mem_set_unit]
  exact Iff.rfl

/-- The 32 blocks tile the output array: entry (t, 0, k) lies in the block of point t. -/
theorem pool_blocks_cover (i : S32x1x256.Idx) :
    ∃ t : Fin cfg0.N, (cfg0.win 1).flush t = true ∧ i ∈ ((cfg0.win 1).blk t).view.set := by
  have hN : cfg0.N = 32 := N_0
  have i0 : (i 0).val < 32 := (i 0).isLt
  have i1 : (i 1).val < 1 := (i 1).isLt
  have i2 : (i 2).val < 256 := (i 2).isLt
  obtain ⟨t, ht⟩ : ∃ t : Fin cfg0.N, t.val = (i 0).val := ⟨⟨(i 0).val, by omega⟩, rfl⟩
  refine ⟨t, flush0_1 t, ?_⟩
  rw [pool_mem_block]
  obtain ⟨-, -, e0, e1, e2⟩ := pool_index_facts t
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 1 ≤ (i 1).val ∧ (i 1).val < win0_1.index t (1 : Fin 3) * 1 + 1; omega
  | ⟨2, _⟩ => show win0_1.index t (2 : Fin 3) * 256 ≤ (i 2).val ∧ (i 2).val < win0_1.index t (2 : Fin 3) * 256 + 256; omega

/-- Every block of the output array is written back once, with the pooled row of the matching block of rows. -/
theorem pool_final (c : Dev nD) : (dats m 0 c).arrAt 1 cfg0.N = Cert.Spec.poolBlocks (V m c main_v0) :=
  (dats m 0 c).arrAt_eq_of_cover 1 (Cert.Spec.poolBlocks (V m c main_v0)) (fun t _ => pool_flushed_eq m c t) pool_blocks_cover

end Cert.KernelIdeal.Hand

end
-- ==== Proof.KTail.lean ====
/-
  The host lines after the region compute the gate from the pooled array and the other arguments.
-/
import proofs.«413852_j23957327577370_3_alg».proof.Proof.Gen.KernelIdeal.Launch
import proofs.«413852_j23957327577370_3_alg».proof.Proof.Spec
import Idealize.ShloMosaic.Lib.StableHlo.Run
import Idealize.ShloMosaic.Lib.Pipeline.Frame

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-! ## What each of the five stretches leaves in the buffers a later stretch reads

Each stretch is taken from arbitrary contents W; its live results are stated through the functions of the
specification. -/

/-- First stretch: the pooled array relaid as a table, shifted, binarised and contracted with the scaled signs of the
    first weights: the first layer. -/
theorem first_layer_value (W : Valuation τ sig (Elt F)) :
    after (hostOps1 (F := F)) W (Proc.devRef .tc main_v16)
      = Cert.Spec.binLin (Cert.Spec.pooledTable (W (Proc.devRef .tc main_v1))) (W (Proc.devRef .tc main_arg1)) (W (Proc.devRef .tc main_arg2)) := by
  after_results_simp; rfl

/-- First stretch: the column means of the first layer (its column sums over the 16 rows, divided by 16). -/
theorem first_layer_mean (W : Valuation τ sig (Elt F)) :
    after (hostOps1 (F := F)) W (Proc.devRef .tc main_v19)
      = Cert.Spec.colMean (Cert.Spec.binLin (Cert.Spec.pooledTable (W (Proc.devRef .tc main_v1))) (W (Proc.devRef .tc main_arg1)) (W (Proc.devRef .tc main_arg2))) := by
  after_results_simp; rfl

/-- First stretch: the integer 0, the degrees of freedom the variance removes. -/
theorem removed_freedom_value (W : Valuation τ sig (Elt F)) :
    after (hostOps1 (F := F)) W (Proc.devRef .tc main_c) = constantI S_ 32 0#32 := by
  after_results_simp

/-- Second stretch: the column variances of the table it is given, once the removed degrees of freedom are the
    integer 0 (the divisor is then 16 − 0, as the specification writes it). -/
theorem variance_value (W : Valuation τ sig (Elt F)) (hc : W (Proc.devRef .tc main_c) = constantI S_ 32 0#32) :
    after (hostOps1_1 (F := F)) W (Proc.devRef .tc main_v20) = Cert.Spec.colVar (W (Proc.devRef .tc main_v16)) := by
  after_results_simp; rw [hc]; rfl

/-- Third and fourth stretches: the table centred by its mean row, scaled by the inverse root of variance + ε, by γ,
    shifted by β and the bias; then the PReLU, which keeps the entries that are ≥ 0 and multiplies the others by the
    slope. The mean row is the given means laid out as one row. -/
theorem normalised_value (W : Valuation τ sig (Elt F)) :
    after (hostOps1_3 (F := F)) (after (hostOps1_2 (F := F)) W) (Proc.devRef .tc main_v43)
      = Cert.Spec.bnPreluOf (W (Proc.devRef .tc main_v16))
          (broadcastInDim S1x512 ![1] bcast_S512_S1x512_1 (W (Proc.devRef .tc main_v19)))
          (W (Proc.devRef .tc main_v20)) (W (Proc.devRef .tc main_arg3)) (W (Proc.devRef .tc main_arg4))
          (W (Proc.devRef .tc main_arg5)) (W (Proc.devRef .tc main_arg6)) := by
  after_results_simp; rfl

/-- Fifth stretch: the second layer of the table it is given, with two unit axes appended. -/
theorem second_layer_value (W : Valuation τ sig (Elt F)) :
    after (hostOps1_4 (F := F)) W (Proc.devRef .tc main_v57)
      = Cert.Spec.unitAxes (Cert.Spec.binLin (W (Proc.devRef .tc main_v43)) (W (Proc.devRef .tc main_arg7)) (W (Proc.devRef .tc main_arg8))) := by
  after_results_simp; rfl

/-! ## What each stretch leaves untouched: every buffer it does not write -/

/-- The buffers the first stretch writes. -/
abbrev written0 : List (Ref sig .tc) :=
  [main_v2, main_v3, main_v4, main_v5, main_v6, main_v7, main_cst, main_v8, main_v9, main_cst_0, main_v10, main_v11,
   main_v12, main_v13, main_v14, main_v15, main_v16, main_cst_1, main_v17, main_cst_2, main_v18, main_v19, main_c]

theorem written0_covers : (hostOps1 : List (HloOp τ sig (Elt F))).Forall fun op => op.writes ⊆ (written0.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> exact List.mem_map_of_mem (by decide)

theorem kept0 (W : Valuation τ sig (Elt F)) (r : Ref sig .tc) (h : r ∉ written0) :
    after (hostOps1 (F := F)) W (Proc.devRef .tc r) = W (Proc.devRef .tc r) :=
  after_of_writes_sub hostOps1 W written0_covers h

/-- The buffers the second stretch writes. -/
abbrev written1 : List (Ref sig .tc) :=
  [main_call0_cst, main_call0_v0, main_call0_v1, main_call0_cst_0, main_call0_v2, main_call0_v3, main_call0_v4,
   main_call0_v5, main_call0_v6, main_call0_v7, main_call0_cst_1, main_call0_v8, main_call0_cst_2, main_call0_v9,
   main_call0_v10, main_call0_v11, main_call0_cst_3, main_call0_v12, main_call0_cst_4, main_call0_call0_v0,
   main_call0_call0_v1, main_v20]

theorem written1_covers : (hostOps1_1 : List (HloOp τ sig (Elt F))).Forall fun op => op.writes ⊆ (written1.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> exact List.mem_map_of_mem (by decide)

theorem kept1 (W : Valuation τ sig (Elt F)) (r : Ref sig .tc) (h : r ∉ written1) :
    after (hostOps1_1 (F := F)) W (Proc.devRef .tc r) = W (Proc.devRef .tc r) :=
  after_of_writes_sub hostOps1_1 W written1_covers h

/-- The buffers the third stretch writes. -/
abbrev written2 : List (Ref sig .tc) :=
  [main_v21, main_v22, main_v23, main_cst_3, main_v24, main_v25, main_v26, main_v27, main_v28, main_v29, main_v30,
   main_v31, main_v32, main_v33, main_v34, main_v35, main_v36, main_v37, main_cst_4, main_v38, main_v39, main_v40,
   main_v41, main_v42]

theorem written2_covers : (hostOps1_2 : List (HloOp τ sig (Elt F))).Forall fun op => op.writes ⊆ (written2.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> exact List.mem_map_of_mem (by decide)

theorem kept2 (W : Valuation τ sig (Elt F)) (r : Ref sig .tc) (h : r ∉ written2) :
    after (hostOps1_2 (F := F)) W (Proc.devRef .tc r) = W (Proc.devRef .tc r) :=
  after_of_writes_sub hostOps1_2 W written2_covers h

/-- The one buffer the fourth stretch writes. -/
abbrev written3 : List (Ref sig .tc) := [main_v43]

theorem written3_covers : (hostOps1_3 : List (HloOp τ sig (Elt F))).Forall fun op => op.writes ⊆ (written3.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  exact List.mem_map_of_mem (by decide)

theorem kept3 (W : Valuation τ sig (Elt F)) (r : Ref sig .tc) (h : r ∉ written3) :
    after (hostOps1_3 (F := F)) W (Proc.devRef .tc r) = W (Proc.devRef .tc r) :=
  after_of_writes_sub hostOps1_3 W written3_covers h

/-! ## The five stretches in a row -/

/-- From any contents W: the result buffer after the five stretches is the gate of the pooled table. -/
theorem tail_value (W : Valuation τ sig (Elt F)) :
    after (List.flatten [hostOps1 (F := F), hostOps1_1, hostOps1_2, hostOps1_3, hostOps1_4]) W (Proc.devRef .tc main_v57)
      = Cert.Spec.gateOfPool (Cert.Spec.pooledTable (W (Proc.devRef .tc main_v1))) (W (Proc.devRef .tc main_arg1)) (W (Proc.devRef .tc main_arg2))
          (W (Proc.devRef .tc main_arg3)) (W (Proc.devRef .tc main_arg4)) (W (Proc.devRef .tc main_arg5)) (W (Proc.devRef .tc main_arg6)) (W (Proc.devRef .tc main_arg7)) (W (Proc.devRef .tc main_arg8)) := by
  have split : List.flatten [hostOps1 (F := F), hostOps1_1, hostOps1_2, hostOps1_3, hostOps1_4]
      = hostOps1 ++ (hostOps1_1 ++ (hostOps1_2 ++ (hostOps1_3 ++ hostOps1_4))) := by
    simp only [List.flatten_cons, List.flatten_nil, List.append_nil]
  rw [split, after_append, after_append, after_append, after_append]
  -- the last stretch reads the select and the second layer's two arguments, which the four stretches before keep
  rw [second_layer_value, normalised_value,
    kept3 _ main_arg7 (by decide), kept3 _ main_arg8 (by decide),
    kept2 _ main_arg7 (by decide), kept2 _ main_arg8 (by decide)]
  -- the second stretch keeps the first layer, its means and every argument, and writes the variances
  rw [variance_value _ (removed_freedom_value W),
    kept1 _ main_v16 (by decide), kept1 _ main_v19 (by decide),
    kept1 _ main_arg3 (by decide), kept1 _ main_arg4 (by decide), kept1 _ main_arg5 (by decide), kept1 _ main_arg6 (by decide),
    kept1 _ main_arg7 (by decide), kept1 _ main_arg8 (by decide)]
  -- the first stretch keeps the later arguments and writes the first layer and its means
  rw [first_layer_value, first_layer_mean,
    kept0 _ main_arg3 (by decide), kept0 _ main_arg4 (by decide), kept0 _ main_arg5 (by decide), kept0 _ main_arg6 (by decide),
    kept0 _ main_arg7 (by decide), kept0 _ main_arg8 (by decide)]
  rfl

end Cert.KernelIdeal.Hand

end
-- ==== Proof.KValue.lean ====
/-
  The kernel's run with its result named: the gate of the block-wise pool of the launched input.
-/
import proofs.«413852_j23957327577370_3_alg».proof.Proof.KFrame
import proofs.«413852_j23957327577370_3_alg».proof.Proof.KPool
import proofs.«413852_j23957327577370_3_alg».proof.Proof.KTail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- What the lines after the region find: the pooled array where the region left it, every argument as launched. -/
theorem tail_result (c : Dev nD) :
    Pipeline.afterTail₀ cfgs (dats m) 0 (V0 m) tailOps c main_v57
      = Cert.Spec.kernelGate (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Pipeline.afterTail₀
  rw [tail_value]
  rw [show Pipeline.withArrays (cfgs 0).spec c (V0 m c) (fun w => (dats m 0 c).arrAt w (cfgs 0).N) (Proc.devRef .tc main_v1)
        = (dats m 0 c).arrAt 1 cfg0.N from Pipeline.withArrays_arr spec0 launch0.win.arr_inj c _ _ 1]
  rw [show Pipeline.withArrays (cfgs 0).spec c (V0 m c) (fun w => (dats m 0 c).arrAt w (cfgs 0).N) (Proc.devRef .tc main_arg1)
        = m ((c.tc : Thread nD τ).loc main_arg1) from
      (Pipeline.withArrays_of_ne _ c (V0 m c) _ main_arg1 (by decide : ∀ w, Pipeline.arrRef spec0 w ≠ main_arg1)).trans (entry_arg1 m c)]
  rw [show Pipeline.withArrays (cfgs 0).spec c (V0 m c) (fun w => (dats m 0 c).arrAt w (cfgs 0).N) (Proc.devRef .tc main_arg2)
        = m ((c.tc : Thread nD τ).loc main_arg2) from
      (Pipeline.withArrays_of_ne _ c (V0 m c) _ main_arg2 (by decide : ∀ w, Pipeline.arrRef spec0 w ≠ main_arg2)).trans (entry_arg2 m c)]
  rw [show Pipeline.withArrays (cfgs 0).spec c (V0 m c) (fun w => (dats m 0 c).arrAt w (cfgs 0).N) (Proc.devRef .tc main_arg3)
        = m ((c.tc : Thread nD τ).loc main_arg3) from
      (Pipeline.withArrays_of_ne _ c (V0 m c) _ main_arg3 (by decide : ∀ w, Pipeline.arrRef spec0 w ≠ main_arg3)).trans (entry_arg3 m c)]
  rw [show Pipeline.withArrays (cfgs 0).spec c (V0 m c) (fun w => (dats m 0 c).arrAt w (cfgs 0).N) (Proc.devRef .tc main_arg4)
        = m ((c.tc : Thread nD τ).loc main_arg4) from
      (Pipeline.withArrays_of_ne _ c (V0 m c) _ main_arg4 (by decide : ∀ w, Pipeline.arrRef spec0 w ≠ main_arg4)).trans (entry_arg4 m c)]
  rw [show Pipeline.withArrays (cfgs 0).spec c (V0 m c) (fun w => (dats m 0 c).arrAt w (cfgs 0).N) (Proc.devRef .tc main_arg5)
        = m ((c.tc : Thread nD τ).loc main_arg5) from
      (Pipeline.withArrays_of_ne _ c (V0 m c) _ main_arg5 (by decide : ∀ w, Pipeline.arrRef spec0 w ≠ main_arg5)).trans (entry_arg5 m c)]
  rw [show Pipeline.withArrays (cfgs 0).spec c (V0 m c) (fun w => (dats m 0 c).arrAt w (cfgs 0).N) (Proc.devRef .tc main_arg6)
        = m ((c.tc : Thread nD τ).loc main_arg6) from
      (Pipeline.withArrays_of_ne _ c (V0 m c) _ main_arg6 (by decide : ∀ w, Pipeline.arrRef spec0 w ≠ main_arg6)).trans (entry_arg6 m c)]
  rw [show Pipeline.withArrays (cfgs 0).spec c (V0 m c) (fun w => (dats m 0 c).arrAt w (cfgs 0).N) (Proc.devRef .tc main_arg7)
        = m ((c.tc : Thread nD τ).loc main_arg7) from
      (Pipeline.withArrays_of_ne _ c (V0 m c) _ main_arg7 (by decide : ∀ w, Pipeline.arrRef spec0 w ≠ main_arg7)).trans (entry_arg7 m c)]
  rw [show Pipeline.withArrays (cfgs 0).spec c (V0 m c) (fun w => (dats m 0 c).arrAt w (cfgs 0).N) (Proc.devRef .tc main_arg8)
        = m ((c.tc : Thread nD τ).loc main_arg8) from
      (Pipeline.withArrays_of_ne _ c (V0 m c) _ main_arg8 (by decide : ∀ w, Pipeline.arrRef spec0 w ≠ main_arg8)).trans (entry_arg8 m c)]
  rw [pool_final, entry_v0]
  rfl

/-- Every weakly fair execution terminates with the result at the kernel's gate of the launched arguments, the
    arguments unchanged. -/
theorem run_value : θ_run defs (onTc (τ := τ) (main (F := F))) ⟨m, fun _ => 0, ρ⟩ (fun r => ∀ c : Dev nD,
      r.2.mem ((c.tc : Thread nD τ).loc main_v57) = Cert.Spec.kernelGate (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
      ⟨((h c).2 main_v57 (Pipeline.mem_restRefs_of main_v57 (by decide) (by decide))).trans (tail_result m c),
       ((h c).2 main_arg0 (Pipeline.mem_restRefs_of main_arg0 (by decide) (by decide))).trans (tail_arg0 m c),
       ((h c).2 main_arg1 (Pipeline.mem_restRefs_of main_arg1 (by decide) (by decide))).trans (tail_arg1 m c),
       ((h c).2 main_arg2 (Pipeline.mem_restRefs_of main_arg2 (by decide) (by decide))).trans (tail_arg2 m c),
       ((h c).2 main_arg3 (Pipeline.mem_restRefs_of main_arg3 (by decide) (by decide))).trans (tail_arg3 m c),
       ((h c).2 main_arg4 (Pipeline.mem_restRefs_of main_arg4 (by decide) (by decide))).trans (tail_arg4 m c),
       ((h c).2 main_arg5 (Pipeline.mem_restRefs_of main_arg5 (by decide) (by decide))).trans (tail_arg5 m c),
       ((h c).2 main_arg6 (Pipeline.mem_restRefs_of main_arg6 (by decide) (by decide))).trans (tail_arg6 m c),
       ((h c).2 main_arg7 (Pipeline.mem_restRefs_of main_arg7 (by decide) (by decide))).trans (tail_arg7 m c),
       ((h c).2 main_arg8 (Pipeline.mem_restRefs_of main_arg8 (by decide) (by decide))).trans (tail_arg8 m c)⟩)
    (run_main m ρ)

end Cert.KernelIdeal.Hand

end
-- ==== Proof.RPart0.lean ====
/-
  The reference's first sixty statements: the plane means, the first straight-through layer, and the batch statistics of its output.
-/
import proofs.«413852_j23957327577370_3_alg».proof.Proof.Gen.ReferenceIdeal
import proofs.«413852_j23957327577370_3_alg».proof.Proof.Spec
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

namespace Part0

/-! ## The operations, in four stretches -/

/-- Statements 1 … 7: each 128×128 plane summed and divided by 16384, then the first shift added along the rows. -/
abbrev poolOps : List (HloOp τ sig (Elt F)) :=
  [ nullary main_cst (constant S_ .f32 0x00000000#32),
    binary main_arg0 main_cst main_v0 (fun x v => Host.reduceAdd x v reducesTo_S16x512x128x128_S16x512_d2_3 h_S_),
    nullary main_cst_0 (constant S_ .f32 0x46800000#32),
    unary main_cst_0 main_v1 (broadcastInDim S16x512 ![] bcast_S_S16x512),
    binary main_v0 main_v1 main_v2 Host.divf,
    unary main_arg1 main_v3 (broadcastInDim S16x512 ![0, 1] bcast_S1x512_S16x512_0_1),
    binary main_v2 main_v3 main_v4 addf ]

/-- Statements 8 … 35: the three comparisons against −1, 0 and 1, the two parabolas, the three nested selections
    (the called selections' lines written where they are called), then sign minus surrogate plus surrogate. -/
abbrev signOps : List (HloOp τ sig (Elt F)) :=
  [ nullary main_cst_1 (constant S_ .f32 0xBF800000#32),
    unary main_cst_1 main_v5 (broadcastInDim S16x512 ![] bcast_S_S16x512),
    binary main_v4 main_v5 main_v6 (cmpf .olt),
    nullary main_cst_2 (constant S_ .f32 0x00000000#32),
    unary main_cst_2 main_v7 (broadcastInDim S16x512 ![] bcast_S_S16x512),
    binary main_v4 main_v7 main_v8 (cmpf .olt),
    binary main_v4 main_v4 main_v9 mulf,
    nullary main_cst_3 (constant S_ .f32 0x40000000#32),
    unary main_cst_3 main_v10 (broadcastInDim S16x512 ![] bcast_S_S16x512),
    binary main_v10 main_v4 main_v11 mulf,
    binary main_v9 main_v11 main_v12 addf,
    nullary main_cst_4 (constant S_ .f32 0x3F800000#32),
    unary main_cst_4 main_v13 (broadcastInDim S16x512 ![] bcast_S_S16x512),
    binary main_v4 main_v13 main_v14 (cmpf .olt),
    unary main_v4 main_v15 Host.negf,
    binary main_v15 main_v4 main_v16 mulf,
    nullary main_cst_5 (constant S_ .f32 0x40000000#32),
    unary main_cst_5 main_v17 (broadcastInDim S16x512 ![] bcast_S_S16x512),
    binary main_v17 main_v4 main_v18 mulf,
    binary main_v16 main_v18 main_v19 addf,
    nullary main_cst_6 (constant S_ .f32 0x3F800000#32),
    TRef.unary (.of main_cst_6 : TRef sig ⟨S_, .f32⟩) main_call0.v0 id,
    TRef.unary main_call0.v0 main_call0.v1 (broadcastInDim S16x512 ![] bcast_S_S16x512),
    TRef.ternary (.of main_v14 : TRef sig ⟨S16x512, .i1⟩) (.of main_v19 : TRef sig ⟨S16x512, .f32⟩) main_call0.v1 main_call0.v2 select,
    TRef.ternary (.of main_v8 : TRef sig ⟨S16x512, .i1⟩) (.of main_v12 : TRef sig ⟨S16x512, .f32⟩) (.of main_v20 : TRef sig ⟨S16x512, .f32⟩) main_call1.v0 select,
    nullary main_cst_7 (constant S_ .f32 0xBF800000#32),
    TRef.unary (.of main_cst_7 : TRef sig ⟨S_, .f32⟩) main_call2.v0 id,
    TRef.unary main_call2.v0 main_call2.v1 (broadcastInDim S16x512 ![] bcast_S_S16x512),
    TRef.ternary (.of main_v6 : TRef sig ⟨S16x512, .i1⟩) main_call2.v1 (.of main_v21 : TRef sig ⟨S16x512, .f32⟩) main_call2.v2 select,
    unary main_v4 main_v23 Host.sign,
    binary main_v23 main_v22 main_v24 subf,
    binary main_v24 main_v22 main_v25 addf ]

/-- Statements 36 … 51: each weight row's mean absolute value against the row's signs, the weights clipped to [−1, 1]
    (the clip's lines written where it is called), their difference plus the clip, transposed. -/
abbrev weightOps : List (HloOp τ sig (Elt F)) :=
  [ unary main_arg2 main_v26 Host.absf,
    nullary main_cst_8 (constant S_ .f32 0x00000000#32),
    binary main_v26 main_cst_8 main_v27 (fun x v => Host.reduceAdd x v reducesTo_S512x512_S512_d1 h_S_),
    unary main_v27 main_v28 (broadcastInDim S512x1 ![0] bcast_S512_S512x1_0),
    nullary main_cst_9 (constant S_ .f32 0x44000000#32),
    unary main_cst_9 main_v29 (broadcastInDim S512x1 ![] bcast_S_S512x1),
    binary main_v28 main_v29 main_v30 Host.divf,
    unary main_arg2 main_v31 Host.sign,
    unary main_v30 main_v32 (broadcastInDim S512x512 ![0, 1] bcast_S512x1_S512x512_0_1),
    binary main_v32 main_v31 main_v33 mulf,
    nullary main_cst_10 (constant S_ .f32 0xBF800000#32),
    nullary main_cst_11 (constant S_ .f32 0x3F800000#32),
    TRef.unary (.of main_cst_10 : TRef sig ⟨S_, .f32⟩) main_call3.v0 id,
    TRef.unary main_call3.v0 main_call3.v1 (broadcastInDim S512x512 ![] bcast_S_S512x512),
    TRef.binary main_call3.v1 (.of main_arg2 : TRef sig ⟨S512x512, .f32⟩) main_call3.v2 maximumf,
    TRef.unary (.of main_cst_11 : TRef sig ⟨S_, .f32⟩) main_call3.v3 id,
    TRef.unary main_call3.v3 main_call3.v4 (broadcastInDim S512x512 ![] bcast_S_S512x512),
    TRef.binary main_call3.v4 main_call3.v2 main_call3.v5 minimumf,
    binary main_v33 main_v34 main_v35 subf,
    binary main_v35 main_v34 main_v36 addf,
    unary main_v36 main_v37 (transpose S512x512 [1, 0] · transposes_S512x512_S512x512_1_0) ]

/-- Statements 52 … 60: the contraction, its column means, its column variances (the variance's lines, and inside them
    the selection's, written where they are called), the means as a row. -/
abbrev statOps : List (HloOp τ sig (Elt F)) :=
  [ binary main_v25 main_v37 main_v38 (fun l r => Host.dotGeneral dot_S16x512_S512x512_S16x512_1_0_0_1_n_n none l r),
    nullary main_cst_12 (constant S_ .f32 0x00000000#32),
    binary main_v38 main_cst_12 main_v39 (fun x v => Host.reduceAdd x v reducesTo_S16x512_S512_d0 h_S_),
    nullary main_cst_13 (constant S_ .f32 0x41800000#32),
    unary main_cst_13 main_v40 (broadcastInDim S512 ![] bcast_S_S512),
    binary main_v39 main_v40 main_v41 Host.divf,
    nullary main_c (constantI S_ 32 0#32),
    TRef.nullary main_call4.cst (constant S_ .f32 0x00000000#32),
    TRef.binary (.of main_v38 : TRef sig ⟨S16x512, .f32⟩) main_call4.cst main_call4.v0 (fun x v => Host.reduceAdd x v reducesTo_S16x512_S512_d0 h_S_),
    TRef.unary main_call4.v0 main_call4.v1 (broadcastInDim S1x512 ![1] bcast_S512_S1x512_1),
    TRef.nullary main_call4.cst_0 (constant S_ .f32 0x41800000#32),
    TRef.unary main_call4.cst_0 main_call4.v2 (broadcastInDim S1x512 ![] bcast_S_S1x512),
    TRef.binary main_call4.v1 main_call4.v2 main_call4.v3 Host.divf,
    TRef.unary main_call4.v3 main_call4.v4 (broadcastInDim S16x512 ![0, 1] bcast_S1x512_S16x512_0_1),
    TRef.binary (.of main_v38 : TRef sig ⟨S16x512, .f32⟩) main_call4.v4 main_call4.v5 subf,
    TRef.binary main_call4.v5 main_call4.v5 main_call4.v6 mulf,
    TRef.unary (.of main_c : TRef sig ⟨S_, .i32⟩) main_call4.v7 (sitofp .f32),
    TRef.nullary main_call4.cst_1 (constant S_ .f32 0x41800000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S16x512_S512_d0 h_S_),
    TRef.unary main_call4.v8 main_call4.v10 (broadcastInDim S512 ![] bcast_S_S512),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S512 ![] bcast_S_S512),
    TRef.ternary main_call4.v12 main_call4.v11 main_call4.call0.v1 main_call4.call0.v2 (fun p a b => select (broadcastInDim S512 ![] bcast_S_S512 p) a b),
    unary main_v41 main_v43 (broadcastInDim S1x512 ![1] bcast_S512_S1x512_1) ]

/-! ## What each stretch writes -/

abbrev poolWrites : List (Ref sig .tc) := [main_cst, main_v0, main_cst_0, main_v1, main_v2, main_v3, main_v4]

abbrev signWrites : List (Ref sig .tc) :=
  [main_cst_1, main_v5, main_v6, main_cst_2, main_v7, main_v8, main_v9, main_cst_3, main_v10, main_v11, main_v12, main_cst_4,
    main_v13, main_v14, main_v15, main_v16, main_cst_5, main_v17, main_v18, main_v19, main_cst_6, main_call0_v0, main_call0_v1,
    main_v20, main_v21, main_cst_7, main_call2_v0, main_call2_v1, main_v22, main_v23, main_v24, main_v25]

abbrev weightWrites : List (Ref sig .tc) :=
  [main_v26, main_cst_8, main_v27, main_v28, main_cst_9, main_v29, main_v30, main_v31, main_v32, main_v33, main_cst_10,
    main_cst_11, main_call3_v0, main_call3_v1, main_call3_v2, main_call3_v3, main_call3_v4, main_v34, main_v35, main_v36, main_v37]

abbrev statWrites : List (Ref sig .tc) :=
  [main_v38, main_cst_12, main_v39, main_cst_13, main_v40, main_v41, main_c, main_call4_cst, main_call4_v0, main_call4_v1,
    main_call4_cst_0, main_call4_v2, main_call4_v3, main_call4_v4, main_call4_v5, main_call4_v6, main_call4_v7, main_call4_cst_1,
    main_call4_v8, main_call4_cst_2, main_call4_v9, main_call4_v10, main_call4_v11, main_call4_cst_3, main_call4_v12,
    main_call4_cst_4, main_call4_call0_v0, main_call4_call0_v1, main_v42, main_v43]

end Part0

/-- The operations of statements 1 … 60, the called functions' lines in place of the calls. -/
abbrev part0Ops : List (HloOp τ sig (Elt F)) := Part0.poolOps ++ Part0.signOps ++ Part0.weightOps ++ Part0.statOps

/-- Every buffer these operations write. -/
def part0Writes : List (Ref sig .tc) := Part0.poolWrites ++ Part0.signWrites ++ Part0.weightWrites ++ Part0.statWrites

-- both sides are one chain of steps once each call is replaced by its body and the sequencing is re-associated
set_option maxRecDepth 4096 in
theorem part0_eq (c : Dev nD) : main_part0 (F := F) c = seq part0Ops := by
  rw [seq_append, seq_append, seq_append]
  simp only [main_part0, fn_where.body, fn_where_0.body, fn_where_1.body, fn_clip.body, fn_var.body, fn_where_2.body,
    seq, bind_assoc, pure_bind]
  rfl

namespace Part0
/-! ## Every operation touches TensorCore references only -/

theorem poolOps_sub : (poolOps : List (HloOp τ sig (Elt F))).Forall fun op => op.bufs ⊆ tcRefs τ sig :=
  ⟨nullary_bufs_sub .., binary_bufs_sub .., nullary_bufs_sub .., unary_bufs_sub .., binary_bufs_sub .., unary_bufs_sub ..,
    binary_bufs_sub ..⟩

theorem signOps_sub : (signOps : List (HloOp τ sig (Elt F))).Forall fun op => op.bufs ⊆ tcRefs τ sig :=
  ⟨nullary_bufs_sub .., unary_bufs_sub .., binary_bufs_sub .., nullary_bufs_sub .., unary_bufs_sub .., binary_bufs_sub ..,
    binary_bufs_sub .., nullary_bufs_sub .., unary_bufs_sub .., binary_bufs_sub .., binary_bufs_sub .., nullary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., unary_bufs_sub .., ternary_bufs_sub ..,
    ternary_bufs_sub .., nullary_bufs_sub .., unary_bufs_sub .., unary_bufs_sub .., ternary_bufs_sub .., unary_bufs_sub ..,
    binary_bufs_sub .., binary_bufs_sub ..⟩

theorem weightOps_sub : (weightOps : List (HloOp τ sig (Elt F))).Forall fun op => op.bufs ⊆ tcRefs τ sig :=
  ⟨unary_bufs_sub .., nullary_bufs_sub .., binary_bufs_sub .., unary_bufs_sub .., nullary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    binary_bufs_sub .., binary_bufs_sub .., unary_bufs_sub ..⟩

theorem statOps_sub : (statOps : List (HloOp τ sig (Elt F))).Forall fun op => op.bufs ⊆ tcRefs τ sig :=
  ⟨binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..⟩

/-- A property of every operation of two stretches is one of every operation of their concatenation. -/
theorem forall_append_of {α : Type} {p : α → Prop} {l₁ l₂ : List α} (h₁ : l₁.Forall p) (h₂ : l₂.Forall p) : (l₁ ++ l₂).Forall p :=
  List.forall_iff_forall_mem.mpr fun a ha => (List.mem_append.mp ha).elim
    (List.forall_iff_forall_mem.mp h₁ a) (List.forall_iff_forall_mem.mp h₂ a)

end Part0

theorem part0_sub : (part0Ops : List (HloOp τ sig (Elt F))).Forall fun op => op.bufs ⊆ tcRefs τ sig := by
  exact Part0.forall_append_of (Part0.forall_append_of (Part0.forall_append_of Part0.poolOps_sub Part0.signOps_sub) Part0.weightOps_sub) Part0.statOps_sub

namespace Part0
/-- The one buffer an operation writes is among a list that holds it. -/
theorem single_sub {L : List (Ref sig .tc)} {y : Ref sig .tc} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem h))

theorem poolOps_writes : (poolOps : List (HloOp τ sig (Elt F))).Forall fun op => op.writes ⊆ (poolWrites.map (Proc.devRef (τ := τ) .tc)).toFinset :=
  ⟨single_sub (by decide), single_sub (by decide), single_sub (by decide), single_sub (by decide), single_sub (by decide), single_sub (by decide), single_sub (by decide)⟩

theorem signOps_writes : (signOps : List (HloOp τ sig (Elt F))).Forall fun op => op.writes ⊆ (signWrites.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩

theorem weightOps_writes : (weightOps : List (HloOp τ sig (Elt F))).Forall fun op => op.writes ⊆ (weightWrites.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩

theorem statOps_writes : (statOps : List (HloOp τ sig (Elt F))).Forall fun op => op.writes ⊆ (statWrites.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩

theorem poolOps_keeps (W : Valuation τ sig (Elt F)) {r : Ref sig .tc} (hr : r ∉ poolWrites) :
    after (poolOps (F := F)) W (Proc.devRef .tc r) = W (Proc.devRef .tc r) :=
  after_of_writes_sub poolOps W poolOps_writes hr

theorem signOps_keeps (W : Valuation τ sig (Elt F)) {r : Ref sig .tc} (hr : r ∉ signWrites) :
    after (signOps (F := F)) W (Proc.devRef .tc r) = W (Proc.devRef .tc r) :=
  after_of_writes_sub signOps W signOps_writes hr

theorem weightOps_keeps (W : Valuation τ sig (Elt F)) {r : Ref sig .tc} (hr : r ∉ weightWrites) :
    after (weightOps (F := F)) W (Proc.devRef .tc r) = W (Proc.devRef .tc r) :=
  after_of_writes_sub weightOps W weightOps_writes hr

theorem statOps_keeps (W : Valuation τ sig (Elt F)) {r : Ref sig .tc} (hr : r ∉ statWrites) :
    after (statOps (F := F)) W (Proc.devRef .tc r) = W (Proc.devRef .tc r) :=
  after_of_writes_sub statOps W statOps_writes hr

end Part0

/-- A buffer they do not write keeps its contents. -/
theorem part0_keeps (W : Valuation τ sig (Elt F)) {r : Ref sig .tc} (hr : r ∉ part0Writes) :
    after (part0Ops (F := F)) W (Proc.devRef .tc r) = W (Proc.devRef .tc r) := by
  have h := hr
  simp only [part0Writes, List.mem_append, not_or] at h
  obtain ⟨⟨⟨hA, hB⟩, hC⟩, hD⟩ := h
  rw [StableHlo.after_append, StableHlo.after_append, StableHlo.after_append, Part0.statOps_keeps _ hD, Part0.weightOps_keeps _ hC,
    Part0.signOps_keeps _ hB, Part0.poolOps_keeps _ hA]

namespace Part0

/-! ## What each stretch computes, from any contents -/

/-- The shifted plane means. -/
theorem poolOps_shifted (W : Valuation τ sig (Elt F)) :
    after (poolOps (F := F)) W (Proc.devRef .tc main_v4)
      = Cert.Spec.shifted (Cert.Spec.poolMean (W (Proc.devRef .tc main_arg0))) (W (Proc.devRef .tc main_arg1)) := by
  after_results_simp
  rfl

/-- The straight-through sign of whatever the shifted input's buffer holds. -/
theorem signOps_signSte (W : Valuation τ sig (Elt F)) :
    after (signOps (F := F)) W (Proc.devRef .tc main_v25) = Cert.Spec.signSte (W (Proc.devRef .tc main_v4)) := by
  after_results_simp
  rfl

/-- The straight-through binarised weights, transposed. -/
theorem weightOps_transposed (W : Valuation τ sig (Elt F)) :
    after (weightOps (F := F)) W (Proc.devRef .tc main_v37)
      = transpose Cert.Spec.S512x512 [1, 0] (Cert.Spec.scaledSignSte (W (Proc.devRef .tc main_arg2))) Cert.Spec.transposes_S512x512_S512x512_1_0 := by
  after_results_simp
  rfl

/-- The contraction of whatever the two factors' buffers hold. -/
theorem statOps_dot (W : Valuation τ sig (Elt F)) :
    after (statOps (F := F)) W (Proc.devRef .tc main_v38)
      = Host.dotGeneral Cert.Spec.dotDims none (W (Proc.devRef .tc main_v25)) (W (Proc.devRef .tc main_v37)) := by
  after_results_simp
  rfl

/-- The column variances of that contraction. -/
theorem statOps_var (W : Valuation τ sig (Elt F)) :
    after (statOps (F := F)) W (Proc.devRef .tc main_v42)
      = Cert.Spec.colVar (Host.dotGeneral Cert.Spec.dotDims none (W (Proc.devRef .tc main_v25)) (W (Proc.devRef .tc main_v37))) := by
  after_results_simp
  rfl

/-- Its column means as a row. -/
theorem statOps_meanRow (W : Valuation τ sig (Elt F)) :
    after (statOps (F := F)) W (Proc.devRef .tc main_v43)
      = Cert.Spec.meanRow (Host.dotGeneral Cert.Spec.dotDims none (W (Proc.devRef .tc main_v25)) (W (Proc.devRef .tc main_v37))) := by
  after_results_simp
  rfl

/-! ## The stretches joined -/

/-- The two factors after the first three stretches: the straight-through sign of the shifted plane means, and the
    transposed straight-through weights. -/
theorem factors (W : Valuation τ sig (Elt F)) :
    Host.dotGeneral Cert.Spec.dotDims none
        (after (poolOps ++ signOps ++ weightOps) W (Proc.devRef .tc main_v25))
        (after (poolOps ++ signOps ++ weightOps) W (Proc.devRef .tc main_v37))
      = Cert.Spec.binLinSte (Cert.Spec.poolMean (W (Proc.devRef .tc main_arg0))) (W (Proc.devRef .tc main_arg1)) (W (Proc.devRef .tc main_arg2)) := by
  rw [StableHlo.after_append, weightOps_transposed, weightOps_keeps _ (r := main_v25) (by decide),
    StableHlo.after_append, signOps_signSte, signOps_keeps _ (r := main_arg2) (by decide),
    poolOps_shifted, poolOps_keeps _ (r := main_arg2) (by decide)]
  rfl

end Part0

/-- The first layer's output. -/
theorem part0_layer (W : Valuation τ sig (Elt F)) :
    after (part0Ops (F := F)) W (Proc.devRef .tc main_v38) = Cert.Spec.binLinSte (Cert.Spec.poolMean (W (Proc.devRef .tc main_arg0))) (W (Proc.devRef .tc main_arg1)) (W (Proc.devRef .tc main_arg2)) := by
  rw [StableHlo.after_append, Part0.statOps_dot, Part0.factors]

/-- Its column variances. -/
theorem part0_var (W : Valuation τ sig (Elt F)) :
    after (part0Ops (F := F)) W (Proc.devRef .tc main_v42) = Cert.Spec.colVar (Cert.Spec.binLinSte (Cert.Spec.poolMean (W (Proc.devRef .tc main_arg0))) (W (Proc.devRef .tc main_arg1)) (W (Proc.devRef .tc main_arg2))) := by
  rw [StableHlo.after_append, Part0.statOps_var, Part0.factors]

/-- Its column means as a row. -/
theorem part0_meanRow (W : Valuation τ sig (Elt F)) :
    after (part0Ops (F := F)) W (Proc.devRef .tc main_v43) = Cert.Spec.meanRow (Cert.Spec.binLinSte (Cert.Spec.poolMean (W (Proc.devRef .tc main_arg0))) (W (Proc.devRef .tc main_arg1)) (W (Proc.devRef .tc main_arg2))) := by
  rw [StableHlo.after_append, Part0.statOps_meanRow, Part0.factors]

end Cert.ReferenceIdeal.Hand

end
-- ==== Proof.RPart12.lean ====
/-
  The reference's statements 61 … 133: normalisation, bias and PReLU, then the second straight-through layer.
-/
import proofs.«413852_j23957327577370_3_alg».proof.Proof.Gen.ReferenceIdeal
import proofs.«413852_j23957327577370_3_alg».proof.Proof.Spec
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The operations, in five stretches

Statements 61 … 120 are the first three stretches and statements 121 … 133 the last two. A call of a module-local
function is written as that function's own lines over the call's buffers: a selection between two tables is one
line, a selection against a scalar three (the scalar converted to its own type, laid over the table, the selection),
a clip to an interval six. -/

/-- Statements 61 … 84: the table minus its mean row, times the inverse deviation laid along the columns, times γ,
    plus β, plus the bias row; then the PReLU as the choice, where that sum is not negative, of the sum over its
    multiple by the slope. -/
abbrev normOps : List (HloOp τ sig (Elt F)) :=
  [ unary main_v43 main_v44 (broadcastInDim S16x512 ![0, 1] bcast_S1x512_S16x512_0_1),
    binary main_v38 main_v44 main_v45 subf,
    nullary main_cst_14 (constant S_ .f32 0x3727C5AC#32),
    unary main_cst_14 main_v46 (broadcastInDim S512 ![] bcast_S_S512),
    binary main_v42 main_v46 main_v47 addf,
    unary main_v47 main_v48 Host.rsqrt,
    unary main_v48 main_v49 (broadcastInDim S1x512 ![1] bcast_S512_S1x512_1),
    unary main_v49 main_v50 (broadcastInDim S16x512 ![0, 1] bcast_S1x512_S16x512_0_1),
    binary main_v45 main_v50 main_v51 mulf,
    unary main_arg3 main_v52 (broadcastInDim S1x512 ![1] bcast_S512_S1x512_1),
    unary main_v52 main_v53 (broadcastInDim S16x512 ![0, 1] bcast_S1x512_S16x512_0_1),
    binary main_v51 main_v53 main_v54 mulf,
    unary main_arg4 main_v55 (broadcastInDim S1x512 ![1] bcast_S512_S1x512_1),
    unary main_v55 main_v56 (broadcastInDim S16x512 ![0, 1] bcast_S1x512_S16x512_0_1),
    binary main_v54 main_v56 main_v57 addf,
    unary main_arg5 main_v58 (broadcastInDim S16x512 ![0, 1] bcast_S1x512_S16x512_0_1),
    binary main_v57 main_v58 main_v59 addf,
    nullary main_cst_15 (constant S_ .f32 0x00000000#32),
    unary main_cst_15 main_v60 (broadcastInDim S16x512 ![] bcast_S_S16x512),
    binary main_v59 main_v60 main_v61 (cmpf .oge),
    unary main_arg6 main_v62 (broadcastInDim S1x512 ![1] bcast_S512_S1x512_1),
    unary main_v62 main_v63 (broadcastInDim S16x512 ![0, 1] bcast_S1x512_S16x512_0_1),
    binary main_v63 main_v59 main_v64 mulf,
    TRef.ternary (.of main_v61) (.of main_v59) (.of main_v64) main_call5.v0 select ]

/-- Statements 85 … 114: the shift by the second move row, the three comparisons and two quadratics of the bounded
    surrogate of the sign, its three nested choices, and the sign in straight-through form (sign − surrogate) +
    surrogate. -/
abbrev steOps : List (HloOp τ sig (Elt F)) :=
  [ unary main_arg7 main_v66 (broadcastInDim S16x512 ![0, 1] bcast_S1x512_S16x512_0_1),
    binary main_v65 main_v66 main_v67 addf,
    nullary main_cst_16 (constant S_ .f32 0xBF800000#32),
    unary main_cst_16 main_v68 (broadcastInDim S16x512 ![] bcast_S_S16x512),
    binary main_v67 main_v68 main_v69 (cmpf .olt),
    nullary main_cst_17 (constant S_ .f32 0x00000000#32),
    unary main_cst_17 main_v70 (broadcastInDim S16x512 ![] bcast_S_S16x512),
    binary main_v67 main_v70 main_v71 (cmpf .olt),
    binary main_v67 main_v67 main_v72 mulf,
    nullary main_cst_18 (constant S_ .f32 0x40000000#32),
    unary main_cst_18 main_v73 (broadcastInDim S16x512 ![] bcast_S_S16x512),
    binary main_v73 main_v67 main_v74 mulf,
    binary main_v72 main_v74 main_v75 addf,
    nullary main_cst_19 (constant S_ .f32 0x3F800000#32),
    unary main_cst_19 main_v76 (broadcastInDim S16x512 ![] bcast_S_S16x512),
    binary main_v67 main_v76 main_v77 (cmpf .olt),
    unary main_v67 main_v78 Host.negf,
    binary main_v78 main_v67 main_v79 mulf,
    nullary main_cst_20 (constant S_ .f32 0x40000000#32),
    unary main_cst_20 main_v80 (broadcastInDim S16x512 ![] bcast_S_S16x512),
    binary main_v80 main_v67 main_v81 mulf,
    binary main_v79 main_v81 main_v82 addf,
    nullary main_cst_21 (constant S_ .f32 0x3F800000#32),
    TRef.unary (.of main_cst_21) main_call6.v0 id,
    TRef.unary main_call6.v0 main_call6.v1 (broadcastInDim S16x512 ![] bcast_S_S16x512),
    TRef.ternary (.of main_v77) (.of main_v82) main_call6.v1 main_call6.v2 select,
    TRef.ternary (.of main_v71) (.of main_v75) (.of main_v83) main_call7.v0 select,
    nullary main_cst_22 (constant S_ .f32 0xBF800000#32),
    TRef.unary (.of main_cst_22) main_call8.v0 id,
    TRef.unary main_call8.v0 main_call8.v1 (broadcastInDim S16x512 ![] bcast_S_S16x512),
    TRef.ternary (.of main_v69) main_call8.v1 (.of main_v84) main_call8.v2 select,
    unary main_v67 main_v86 Host.sign,
    binary main_v86 main_v85 main_v87 subf,
    binary main_v87 main_v85 main_v88 addf ]

/-- Statements 115 … 120: each row of the second weights summed in absolute value, as a column, and the column of
    512s it is to be divided by. -/
abbrev rowSumOps : List (HloOp τ sig (Elt F)) :=
  [ unary main_arg8 main_v89 Host.absf,
    nullary main_cst_23 (constant S_ .f32 0x00000000#32),
    binary main_v89 main_cst_23 main_v90 (fun x v => Host.reduceAdd x v reducesTo_S512x512_S512_d1 h_S_),
    unary main_v90 main_v91 (broadcastInDim S512x1 ![0] bcast_S512_S512x1_0),
    nullary main_cst_24 (constant S_ .f32 0x44000000#32),
    unary main_cst_24 main_v92 (broadcastInDim S512x1 ![] bcast_S_S512x1) ]

/-- Statements 121 … 129: the row means laid along the rows times the signs, the weights clipped to [−1, 1], and
    the straight-through sum (scaled signs − clipped) + clipped. -/
abbrev weightOps : List (HloOp τ sig (Elt F)) :=
  [ binary main_v91 main_v92 main_v93 Host.divf,
    unary main_arg8 main_v94 Host.sign,
    unary main_v93 main_v95 (broadcastInDim S512x512 ![0, 1] bcast_S512x1_S512x512_0_1),
    binary main_v95 main_v94 main_v96 mulf,
    nullary main_cst_25 (constant S_ .f32 0xBF800000#32),
    nullary main_cst_26 (constant S_ .f32 0x3F800000#32),
    TRef.unary (.of main_cst_25) main_call9.v0 id,
    TRef.unary main_call9.v0 main_call9.v1 (broadcastInDim S512x512 ![] bcast_S_S512x512),
    TRef.binary main_call9.v1 (.of main_arg8) main_call9.v2 maximumf,
    TRef.unary (.of main_cst_26) main_call9.v3 id,
    TRef.unary main_call9.v3 main_call9.v4 (broadcastInDim S512x512 ![] bcast_S_S512x512),
    TRef.binary main_call9.v4 main_call9.v2 main_call9.v5 minimumf,
    binary main_v96 main_v97 main_v98 subf,
    binary main_v98 main_v97 main_v99 addf ]

/-- Statements 130 … 132: the transposition, the contraction of the activations with it, and the two unit axes. -/
abbrev dotOps : List (HloOp τ sig (Elt F)) :=
  [ unary main_v99 main_v100 (transpose S512x512 [1, 0] · transposes_S512x512_S512x512_1_0),
    binary main_v88 main_v100 main_v101 (fun l r => Host.dotGeneral dot_S16x512_S512x512_S16x512_1_0_0_1_n_n none l r),
    unary main_v101 main_v102 (broadcastInDim S16x512x1x1 ![0, 1] bcast_S16x512_S16x512x1x1_0_1) ]

/-- The operations of statements 61 … 133, the called functions' lines in place of the calls. -/
abbrev part12Ops : List (HloOp τ sig (Elt F)) := (normOps ++ steOps ++ rowSumOps) ++ (weightOps ++ dotOps)

/-! ## What each stretch writes -/

/-- The buffers of statements 61 … 84. -/
abbrev normW : List (Ref sig .tc) :=
  [main_v44, main_v45, main_cst_14, main_v46, main_v47, main_v48, main_v49, main_v50, main_v51, main_v52, main_v53,
     main_v54, main_v55, main_v56, main_v57, main_v58, main_v59, main_cst_15, main_v60, main_v61, main_v62, main_v63,
     main_v64, main_v65]

/-- The buffers of statements 85 … 114. -/
abbrev steW : List (Ref sig .tc) :=
  [main_v66, main_v67, main_cst_16, main_v68, main_v69, main_cst_17, main_v70, main_v71, main_v72, main_cst_18,
     main_v73, main_v74, main_v75, main_cst_19, main_v76, main_v77, main_v78, main_v79, main_cst_20, main_v80,
     main_v81, main_v82, main_cst_21, main_call6_v0, main_call6_v1, main_v83, main_v84, main_cst_22, main_call8_v0,
     main_call8_v1, main_v85, main_v86, main_v87, main_v88]

/-- The buffers of statements 115 … 120. -/
abbrev rowSumW : List (Ref sig .tc) :=
  [main_v89, main_cst_23, main_v90, main_v91, main_cst_24, main_v92]

/-- The buffers of statements 121 … 129. -/
abbrev weightW : List (Ref sig .tc) :=
  [main_v93, main_v94, main_v95, main_v96, main_cst_25, main_cst_26, main_call9_v0, main_call9_v1, main_call9_v2,
     main_call9_v3, main_call9_v4, main_v97, main_v98, main_v99]

/-- The buffers of statements 130 … 132. -/
abbrev dotW : List (Ref sig .tc) :=
  [main_v100, main_v101, main_v102]

/-- Every buffer these operations write. -/
def part12Writes : List (Ref sig .tc) := normW ++ steW ++ rowSumW ++ weightW ++ dotW

/-- Each operation of a literal stretch writes its one result buffer, and that buffer is in the stretch's list. -/
local macro "writes_in_list" : tactic =>
  `(tactic| (simp only [List.Forall, nullary_writes, unary_writes, binary_writes, ternary_writes,
               Finset.singleton_subset_iff, List.mem_toFinset]
             repeat' apply And.intro
             all_goals exact List.mem_map_of_mem (by decide)))

theorem normOps_writes : (normOps : List (HloOp τ sig (Elt F))).Forall fun op =>
    op.writes ⊆ (normW.map (Proc.devRef (τ := τ) .tc)).toFinset := by writes_in_list

theorem steOps_writes : (steOps : List (HloOp τ sig (Elt F))).Forall fun op =>
    op.writes ⊆ (steW.map (Proc.devRef (τ := τ) .tc)).toFinset := by writes_in_list

theorem rowSumOps_writes : (rowSumOps : List (HloOp τ sig (Elt F))).Forall fun op =>
    op.writes ⊆ (rowSumW.map (Proc.devRef (τ := τ) .tc)).toFinset := by writes_in_list

theorem weightOps_writes : (weightOps : List (HloOp τ sig (Elt F))).Forall fun op =>
    op.writes ⊆ (weightW.map (Proc.devRef (τ := τ) .tc)).toFinset := by writes_in_list

theorem dotOps_writes : (dotOps : List (HloOp τ sig (Elt F))).Forall fun op =>
    op.writes ⊆ (dotW.map (Proc.devRef (τ := τ) .tc)).toFinset := by writes_in_list

/-! ## The two windows are these lists run in order -/

-- sixty-four binds re-associated, one level of recursion per statement
set_option maxRecDepth 4096 in
set_option maxHeartbeats 4000000 in
/-- Statements 61 … 120: the called functions' definitions opened at their calls, both sides are one chain of steps
    once sequencing is re-associated. -/
theorem part1_eq (c : Dev nD) : main_part1 (F := F) c = seq (normOps ++ steOps ++ rowSumOps) := by
  rw [seq_append, seq_append]
  simp only [main_part1, fn_where_0.body, fn_where.body, fn_where_1.body, seq, bind_assoc, pure_bind]
  rfl

set_option maxRecDepth 4096 in
set_option maxHeartbeats 4000000 in
/-- Statements 121 … 133, likewise. -/
theorem part2_eq (c : Dev nD) : main_part2 (F := F) c = seq (weightOps ++ dotOps) := by
  rw [seq_append]
  simp only [main_part2, fn_clip.body, seq, bind_assoc, pure_bind]
  rfl

theorem part12_eq (c : Dev nD) : (main_part1 (F := F) c >>= fun _ => main_part2 (F := F) c) = seq part12Ops := by
  rw [seq_append, part1_eq, part2_eq]

/-! ## Every operand is a TensorCore buffer -/

theorem normOps_sub : (normOps : List (HloOp τ sig (Elt F))).Forall fun op => op.bufs ⊆ tcRefs τ sig :=
  ⟨unary_bufs_sub .., binary_bufs_sub .., nullary_bufs_sub .., unary_bufs_sub .., binary_bufs_sub ..,
     unary_bufs_sub .., unary_bufs_sub .., unary_bufs_sub .., binary_bufs_sub .., unary_bufs_sub ..,
     unary_bufs_sub .., binary_bufs_sub .., unary_bufs_sub .., unary_bufs_sub .., binary_bufs_sub ..,
     unary_bufs_sub .., binary_bufs_sub .., nullary_bufs_sub .., unary_bufs_sub .., binary_bufs_sub ..,
     unary_bufs_sub .., unary_bufs_sub .., binary_bufs_sub .., ternary_bufs_sub ..⟩

theorem steOps_sub : (steOps : List (HloOp τ sig (Elt F))).Forall fun op => op.bufs ⊆ tcRefs τ sig :=
  ⟨unary_bufs_sub .., binary_bufs_sub .., nullary_bufs_sub .., unary_bufs_sub .., binary_bufs_sub ..,
     nullary_bufs_sub .., unary_bufs_sub .., binary_bufs_sub .., binary_bufs_sub .., nullary_bufs_sub ..,
     unary_bufs_sub .., binary_bufs_sub .., binary_bufs_sub .., nullary_bufs_sub .., unary_bufs_sub ..,
     binary_bufs_sub .., unary_bufs_sub .., binary_bufs_sub .., nullary_bufs_sub .., unary_bufs_sub ..,
     binary_bufs_sub .., binary_bufs_sub .., nullary_bufs_sub .., unary_bufs_sub .., unary_bufs_sub ..,
     ternary_bufs_sub .., ternary_bufs_sub .., nullary_bufs_sub .., unary_bufs_sub .., unary_bufs_sub ..,
     ternary_bufs_sub .., unary_bufs_sub .., binary_bufs_sub .., binary_bufs_sub ..⟩

theorem rowSumOps_sub : (rowSumOps : List (HloOp τ sig (Elt F))).Forall fun op => op.bufs ⊆ tcRefs τ sig :=
  ⟨unary_bufs_sub .., nullary_bufs_sub .., binary_bufs_sub .., unary_bufs_sub .., nullary_bufs_sub ..,
     unary_bufs_sub ..⟩

theorem weightOps_sub : (weightOps : List (HloOp τ sig (Elt F))).Forall fun op => op.bufs ⊆ tcRefs τ sig :=
  ⟨binary_bufs_sub .., unary_bufs_sub .., unary_bufs_sub .., binary_bufs_sub .., nullary_bufs_sub ..,
     nullary_bufs_sub .., unary_bufs_sub .., unary_bufs_sub .., binary_bufs_sub .., unary_bufs_sub ..,
     unary_bufs_sub .., binary_bufs_sub .., binary_bufs_sub .., binary_bufs_sub ..⟩

theorem dotOps_sub : (dotOps : List (HloOp τ sig (Elt F))).Forall fun op => op.bufs ⊆ tcRefs τ sig :=
  ⟨unary_bufs_sub .., binary_bufs_sub .., unary_bufs_sub ..⟩

theorem part12_sub : (part12Ops : List (HloOp τ sig (Elt F))).Forall fun op => op.bufs ⊆ tcRefs τ sig :=
  List.forall_append.mpr ⟨List.forall_append.mpr ⟨List.forall_append.mpr ⟨normOps_sub, steOps_sub⟩, rowSumOps_sub⟩,
    List.forall_append.mpr ⟨weightOps_sub, dotOps_sub⟩⟩

/-! ## What is kept -/

/-- A buffer they do not write keeps its contents. -/
theorem part12_keeps (W : Valuation τ sig (Elt F)) {r : Ref sig .tc} (hr : r ∉ part12Writes) :
    after (part12Ops (F := F)) W (Proc.devRef .tc r) = W (Proc.devRef .tc r) := by
  simp only [part12Writes, List.mem_append, not_or] at hr
  obtain ⟨⟨⟨⟨hn, hs⟩, hr'⟩, hw⟩, hd⟩ := hr
  rw [StableHlo.after_append, StableHlo.after_append, StableHlo.after_append, StableHlo.after_append,
    after_of_writes_sub dotOps _ dotOps_writes hd, after_of_writes_sub weightOps _ weightOps_writes hw,
    after_of_writes_sub rowSumOps _ rowSumOps_writes hr', after_of_writes_sub steOps _ steOps_writes hs,
    after_of_writes_sub normOps _ normOps_writes hn]

/-! ## The values, stretch by stretch, from any contents -/

/-- After statements 61 … 84 the table %65 is the normalised, biased, PReLU-ed first layer. -/
theorem normOps_val (V : Valuation τ sig (Elt F)) :
    after (normOps (F := F)) V (Proc.devRef .tc main_v65)
      = Cert.Spec.bnPreluOf (V (Proc.devRef .tc main_v38)) (V (Proc.devRef .tc main_v43)) (V (Proc.devRef .tc main_v42))
          (V (Proc.devRef .tc main_arg3)) (V (Proc.devRef .tc main_arg4)) (V (Proc.devRef .tc main_arg5)) (V (Proc.devRef .tc main_arg6)) := by
  after_results_simp
  rfl

/-- After statements 85 … 114 the table %88 is the straight-through sign of %65 shifted by the move row. -/
theorem steOps_val (V : Valuation τ sig (Elt F)) :
    after (steOps (F := F)) V (Proc.devRef .tc main_v88)
      = Cert.Spec.signSte (Cert.Spec.shifted (V (Proc.devRef .tc main_v65)) (V (Proc.devRef .tc main_arg7))) := by
  after_results_simp
  rfl

/-- After statements 115 … 129 the matrix %99 is the straight-through binarisation of the second weights. -/
theorem weightOps_val (V : Valuation τ sig (Elt F)) :
    after (weightOps (F := F)) (after (rowSumOps (F := F)) V) (Proc.devRef .tc main_v99)
      = Cert.Spec.scaledSignSte (V (Proc.devRef .tc main_arg8)) := by
  after_results_simp
  rfl

/-- After statements 130 … 132 the result is the layer of %88 against %99, two unit axes appended. -/
theorem dotOps_val (V : Valuation τ sig (Elt F)) :
    after (dotOps (F := F)) V (Proc.devRef .tc main_v102)
      = Cert.Spec.unitAxes (Cert.Spec.layer (V (Proc.devRef .tc main_v88)) (V (Proc.devRef .tc main_v99))) := by
  after_results_simp
  rfl

/-- The result from the first layer's output, its mean row and its variances as these statements find them. -/
theorem part12_out (W : Valuation τ sig (Elt F)) :
    after (part12Ops (F := F)) W (Proc.devRef .tc main_v102)
      = Cert.Spec.unitAxes (Cert.Spec.binLinSte
          (Cert.Spec.bnPreluOf (W (Proc.devRef .tc main_v38)) (W (Proc.devRef .tc main_v43)) (W (Proc.devRef .tc main_v42)) (W (Proc.devRef .tc main_arg3)) (W (Proc.devRef .tc main_arg4)) (W (Proc.devRef .tc main_arg5)) (W (Proc.devRef .tc main_arg6)))
          (W (Proc.devRef .tc main_arg7)) (W (Proc.devRef .tc main_arg8))) := by
  rw [StableHlo.after_append, StableHlo.after_append, StableHlo.after_append, StableHlo.after_append,
    dotOps_val, weightOps_val,
    after_of_writes_sub weightOps _ weightOps_writes (r := main_v88) (by decide),
    after_of_writes_sub rowSumOps _ rowSumOps_writes (r := main_v88) (by decide),
    steOps_val, normOps_val,
    after_of_writes_sub normOps _ normOps_writes (r := main_arg7) (by decide),
    after_of_writes_sub steOps _ steOps_writes (r := main_arg8) (by decide),
    after_of_writes_sub normOps _ normOps_writes (r := main_arg8) (by decide)]
  rfl

end Cert.ReferenceIdeal.Hand

end
-- ==== Proof.RRun.lean ====
/-
  The reference's run: every weakly fair execution terminates with the result at the straight-through gate of the plane means, the arguments unchanged.
-/
import proofs.«413852_j23957327577370_3_alg».proof.Proof.Gen.ReferenceIdeal
import proofs.«413852_j23957327577370_3_alg».proof.Proof.Spec
import Idealize.ShloMosaic.Lib.StableHlo.Run
import Idealize.ShloMosaic.Lib.Pipeline.Frame
import proofs.«413852_j23957327577370_3_alg».proof.Proof.RPart0
import proofs.«413852_j23957327577370_3_alg».proof.Proof.RPart12

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations: the first sixty statements', then the rest. -/
abbrev refOps : List (HloOp τ sig (Elt F)) := part0Ops ++ part12Ops

theorem main_eq (c : Dev nD) : main (F := F) c = seq refOps := by
  rw [seq_append]
  show (main_part0 (F := F) c >>= fun _ => (main_part1 (F := F) c >>= fun _ => main_part2 (F := F) c)) = _
  exact congrArg₂ (fun a b => a >>= fun _ => b) (part0_eq c) (part12_eq c)

theorem refOps_sub : (refOps : List (HloOp τ sig (Elt F))).Forall fun op => op.bufs ⊆ tcRefs τ sig :=
  List.forall_iff_forall_mem.mpr fun op hop => (List.mem_append.mp hop).elim
    (List.forall_iff_forall_mem.mp part0_sub op) (List.forall_iff_forall_mem.mp part12_sub op)

theorem scopedRefs_eq : (Finset.univ.filter fun b : Ref sig .tc => b.isScoped) = ∅ := by decide
theorem scopedSems_eq : (Finset.univ.filter fun sm : SemLoc sig => sm.isScoped .tc) = ∅ := by decide

/-- The result buffer after all of @main, from any contents. -/
theorem ref_value (W : Valuation τ sig (Elt F)) :
    after (refOps (F := F)) W (Proc.devRef .tc main_v102) = Cert.Spec.referenceGate (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := by
  rw [StableHlo.after_append, part12_out, part0_layer, part0_meanRow, part0_var,
    part0_keeps W (r := main_arg3) (by decide), part0_keeps W (r := main_arg4) (by decide),
    part0_keeps W (r := main_arg5) (by decide), part0_keeps W (r := main_arg6) (by decide),
    part0_keeps W (r := main_arg7) (by decide), part0_keeps W (r := main_arg8) (by decide)]
  rfl

/-- No operation writes an argument. -/
theorem ref_keeps (W : Valuation τ sig (Elt F)) {r : Ref sig .tc} (h0 : r ∉ part0Writes) (h12 : r ∉ part12Writes) :
    after (refOps (F := F)) W (Proc.devRef .tc r) = W (Proc.devRef .tc r) := by
  rw [StableHlo.after_append, part12_keeps _ h12, part0_keeps _ h0]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v102) = Cert.Spec.referenceGate (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v102).trans (ref_value _),
      (h c main_arg0).trans (ref_keeps _ (by decide) (by decide)),
      (h c main_arg1).trans (ref_keeps _ (by decide) (by decide)),
      (h c main_arg2).trans (ref_keeps _ (by decide) (by decide)),
      (h c main_arg3).trans (ref_keeps _ (by decide) (by decide)),
      (h c main_arg4).trans (ref_keeps _ (by decide) (by decide)),
      (h c main_arg5).trans (ref_keeps _ (by decide) (by decide)),
      (h c main_arg6).trans (ref_keeps _ (by decide) (by decide)),
      (h c main_arg7).trans (ref_keeps _ (by decide) (by decide)),
      (h c main_arg8).trans (ref_keeps _ (by decide) (by decide))⟩)
    (run_seq scopedRefs_eq scopedSems_eq defs main (fun _ => refOps) main_eq (fun _ => refOps_sub) m ρ)

end Cert.ReferenceIdeal.Hand

end
-- ==== Proof.BridgeSte.lean ====
/-
  Over the extended reals (s − t) + t = s for finite t; both surrogates are bounded, so the straight-through layer is the plain one.
-/
import proofs.«413852_j23957327577370_3_alg».proof.Proof.Spec
import Idealize.ShloMosaic.PureOps.Ideal
import Idealize.ShloMosaic.PureOps.Ideal.Laws
import Idealize.ShloMosaic.Lib.ValueIdx
import Idealize.ShloMosaic.Lib.Pipeline.Value

noncomputable section

namespace Cert.Spec

open Idealize.ShloMosaic Idealize.ShloMosaic.ValueIdx

/-! ## The four literals, as the real numbers their words denote -/

/-- The word of −1.0 denotes the real −1. -/
theorem lit_negOne : Ideal.ofBits .f32 0xBF800000#32 = ((-1 : ℝ) : EReal) := by
  rw [show (0xBF800000#32 : BitVec FTy.f32.bits) = IdealRules.sign_bit.negOnePat .f32 from rfl,
    IdealRules.sign_bit.ideal_negOnePat]
  simp

/-- The word of 1.0 denotes the real 1. -/
theorem lit_one : Ideal.ofBits .f32 0x3F800000#32 = ((1 : ℝ) : EReal) := by
  rw [show (0x3F800000#32 : BitVec FTy.f32.bits) = IdealRules.sign_bit.onePat .f32 from rfl,
    IdealRules.sign_bit.ideal_onePat]
  simp

/-- The word of +0.0 denotes the real 0. -/
theorem lit_zero : Ideal.ofBits .f32 0x00000000#32 = ((0 : ℝ) : EReal) := by
  rw [Ideal.ofBits_zero_f32]; simp

/-- The word of 2.0 (exponent 128, empty fraction) denotes the real 2. -/
theorem lit_two : Ideal.ofBits .f32 0x40000000#32 = ((2 : ℝ) : EReal) := by
  simp [Ideal.ofBits, Ideal.ieee, -EReal.coe_mul]; norm_num

/-- A select on the truth value of a decidable proposition is the if-then-else on that proposition. -/
theorem sel_decide {α : Type} (p : Prop) [Decidable p] (a b : α) :
    Scalar.select (BitVec.ofBool (decide p)) a b = if p then a else b := by
  unfold Scalar.select
  by_cases h : p <;> simp [h]

/-! ## The activations -/

/-- The surrogate of the sign is a real number at every entry, whatever extended real x is there: at −∞ the first
    comparison x < −1 holds and the value is −1; at +∞ none of x < −1, x < 0, x < 1 holds and the value is 1; at a real
    x each of the four branches (−1, x·x + 2·x, (−x)·x + 2·x, 1) is a real. -/
theorem surrogate_real (x : FVec Ideal S16x512 .f32) (i : S16x512.Idx) :
    ∃ r : ℝ, surrogate (F := Ideal) x i = (r : EReal) := by
  have hb : ∀ (b : BitVec 32) (j : S16x512.Idx),
      broadcastInDim S16x512 ![] bcast_S_S16x512 (constant (F := Ideal) S_ .f32 b) j = Ideal.ofBits .f32 b :=
    fun _ _ => rfl
  have hbid : ∀ (b : BitVec 32) (j : S16x512.Idx),
      broadcastInDim S16x512 ![] bcast_S_S16x512 (id (constant (F := Ideal) S_ .f32 b)) j = Ideal.ofBits .f32 b :=
    fun _ _ => rfl
  unfold surrogate
  simp only [select, cmpf, mulf, addf, Host.negf, Ideal.cmpf_def, Ideal.cmp, Ideal.hostNegf_def, Ideal.negf_def,
    Ideal.addf_def, Ideal.mulf_def, hb, hbid, lit_zero, lit_one, lit_negOne, lit_two, sel_decide]
  generalize x i = a
  induction a using EReal.rec with
  | bot => exact ⟨-1, if_pos (EReal.bot_lt_coe _)⟩
  | top => exact ⟨1, by rw [if_neg not_top_lt, if_neg not_top_lt, if_neg not_top_lt]⟩
  | coe r =>
    simp only [EReal.coe_lt_coe_iff, ← EReal.coe_neg, ← EReal.coe_mul, ← EReal.coe_add]
    split_ifs <;> exact ⟨_, rfl⟩

/-- The straight-through sign is the sign: the surrogate takes values in [−1, 1] wherever its argument lies. -/
theorem signSte_eq (x : FVec Ideal S16x512 .f32) : signSte (F := Ideal) x = Host.sign x := by
  funext i
  obtain ⟨r, hr⟩ := surrogate_real x i
  -- entrywise: (sign x − t) + t with t the surrogate, a real, so subtracting and adding it back cancels
  show (Host.sign x i - surrogate x i) + surrogate x i = Host.sign x i
  rw [hr]
  exact EReal.sub_add_cancel

/-! ## The weights -/

/-- The clipped weight min 1 (max (−1) w) is a real number at every entry: −1 at −∞, 1 at +∞, and at a real w the
    same clip taken in the reals (the embedding of the reals is monotone, so it commutes with max and min). -/
theorem clipped_real (w : FVec Ideal S512x512 .f32) (i : S512x512.Idx) :
    ∃ r : ℝ, clipped (F := Ideal) w i = (r : EReal) := by
  have hbid : ∀ (b : BitVec 32) (j : S512x512.Idx),
      broadcastInDim S512x512 ![] bcast_S_S512x512 (id (constant (F := Ideal) S_ .f32 b)) j = Ideal.ofBits .f32 b :=
    fun _ _ => rfl
  unfold clipped
  simp only [minimumf, maximumf, Ideal.minimumf_def, Ideal.maximumf_def, hbid, lit_one, lit_negOne]
  generalize w i = a
  induction a using EReal.rec with
  | bot => exact ⟨-1, by rw [max_eq_left bot_le, min_eq_right (EReal.coe_le_coe_iff.mpr (by norm_num))]⟩
  | top => exact ⟨1, by rw [max_eq_right le_top, min_eq_left le_top]⟩
  | coe r =>
    exact ⟨min 1 (max (-1) r), by
      rw [EReal.coe_strictMono.monotone.map_min, EReal.coe_strictMono.monotone.map_max]⟩

/-- The straight-through weights are scale·sign: the clipped weights lie in [−1, 1]. -/
theorem scaledSignSte_eq (w : FVec Ideal S512x512 .f32) : scaledSignSte (F := Ideal) w = scaledSign w := by
  funext i
  obtain ⟨r, hr⟩ := clipped_real w i
  -- entrywise: (a − c) + c with a the scaled sign, any extended real, and c the clipped weight, a real
  show (scaledSign w i - clipped w i) + clipped w i = scaledSign w i
  rw [hr]
  exact EReal.sub_add_cancel

theorem binLinSte_eq (p : FVec Ideal S16x512 .f32) (mb : FVec Ideal S1x512 .f32) (w : FVec Ideal S512x512 .f32) :
    binLinSte (F := Ideal) p mb w = binLin p mb w := by
  unfold binLinSte binLin
  rw [signSte_eq, scaledSignSte_eq]

end Cert.Spec

end
-- ==== Proof.BridgePool.lean ====
/-
  The pooled table is the table of plane means: a row sum scaled by 2⁻¹⁴ is the plane's sum divided by 16384.
-/
import proofs.«413852_j23957327577370_3_alg».proof.Proof.Spec
import Idealize.ShloMosaic.PureOps.Ideal
import Idealize.ShloMosaic.PureOps.Ideal.Laws
import Idealize.ShloMosaic.Lib.ValueIdx
import Idealize.ShloMosaic.Lib.Pipeline.Value

noncomputable section

namespace Cert.Spec

open Idealize.ShloMosaic Idealize.ShloMosaic.ValueIdx

/-! ## The two constants -/

/-- The pattern the kernel scales a row sum by denotes 2⁻¹⁴ = 1/16384. -/
theorem ofBits_inv16384 : Ideal.ofBits .f32 0x38800000#32 = (((1 : ℝ) / 16384 : ℝ) : EReal) := by
  simp [Ideal.ofBits, Ideal.ieee, -EReal.coe_mul]; norm_num

/-- The pattern the reference divides a plane sum by denotes 2¹⁴ = 16384. -/
theorem ofBits_16384 : Ideal.ofBits .f32 0x46800000#32 = ((16384 : ℝ) : EReal) := by
  simp [Ideal.ofBits, Ideal.ieee, -EReal.coe_mul]; norm_num

/-! ## Positions inside a plane -/

/-- The entry of plane (b, c) at the flat position k = 128·h + w, that is (b, c, k / 128, k % 128). -/
abbrev planeIdx (b : Fin 16) (c : Fin 512) (k : Fin 16384) : S16x512x128x128.Idx :=
  ix4 b c (⟨k.val / 128, by have := k.isLt; omega⟩ : Fin 128) (⟨k.val % 128, Nat.mod_lt _ (by decide)⟩ : Fin 128)

/-- The flat position 128·h + w of an entry (·, ·, h, w) inside its plane. -/
abbrev planePos (i : S16x512x128x128.Idx) : Fin 16384 :=
  ⟨128 * (i 2).val + (i 3).val, by
    have h2 : (i 2).val < 128 := (i 2).isLt
    have h3 : (i 3).val < 128 := (i 3).isLt
    omega⟩

/-- Every entry of plane (b, c) reduces to the table index (b, c). -/
theorem drop_planeIdx (b : Fin 16) (c : Fin 512) (k : Fin 16384) :
    reducesTo_S16x512x128x128_S16x512_d2_3.drop (planeIdx b c k) = ix2 b c := by
  funext a
  refine Fin.ext ?_
  match a with
  | ⟨0, _⟩ => exact Shape.ReducesTo.drop_apply_val_of_eq reducesTo_S16x512x128x128_S16x512_d2_3 _ 0 0
  | ⟨1, _⟩ => exact Shape.ReducesTo.drop_apply_val_of_eq reducesTo_S16x512x128x128_S16x512_d2_3 _ 1 1

/-- An entry that reduces to (b, c) is the entry of plane (b, c) at its own flat position. -/
theorem planeIdx_planePos (b : Fin 16) (c : Fin 512) (i : S16x512x128x128.Idx)
    (hj : reducesTo_S16x512x128x128_S16x512_d2_3.drop i = ix2 b c) : planeIdx b c (planePos i) = i := by
  have h0 : (i 0).val = b.val := by
    rw [← Shape.ReducesTo.drop_apply_val_of_eq reducesTo_S16x512x128x128_S16x512_d2_3 i 0 0, hj]
  have h1 : (i 1).val = c.val := by
    rw [← Shape.ReducesTo.drop_apply_val_of_eq reducesTo_S16x512x128x128_S16x512_d2_3 i 1 1, hj]
  have h2 : (i 2).val < 128 := (i 2).isLt
  have h3 : (i 3).val < 128 := (i 3).isLt
  funext a
  refine Fin.ext ?_
  match a with
  | ⟨0, _⟩ => exact h0.symm
  | ⟨1, _⟩ => exact h1.symm
  | ⟨2, _⟩ => show (128 * (i 2).val + (i 3).val) / 128 = (i 2).val; omega
  | ⟨3, _⟩ => show (128 * (i 2).val + (i 3).val) % 128 = (i 3).val; omega

/-! ## The reference's side: a plane sum over the flat positions -/

/-- The sum over the two plane axes at (b, c) is the initial value plus the sum over the 16384 flat positions: the
    entries that reduce to (b, c) correspond one to one to the positions k ↔ (k / 128, k % 128). -/
theorem planeSum_apply (x : FVec Ideal S16x512x128x128 .f32) (init : EReal) (b : Fin 16) (c : Fin 512) :
    Ideal.hostReduceAdd reducesTo_S16x512x128x128_S16x512_d2_3 x init (ix2 b c)
      = init + ∑ k : Fin 16384, x (planeIdx b c k) := by
  unfold Ideal.hostReduceAdd
  refine congrArg (init + ·) ?_
  refine Finset.sum_nbij' planePos (fun k => planeIdx b c k) ?_ ?_ ?_ ?_ ?_
  · intro i _; exact Finset.mem_univ _
  · intro k _; exact Finset.mem_filter.2 ⟨Finset.mem_univ _, drop_planeIdx b c k⟩
  · intro i hi; exact planeIdx_planePos b c i (Finset.mem_filter.1 hi).2
  · intro k _
    refine Fin.ext ?_
    show 128 * (k.val / 128) + k.val % 128 = k.val
    omega
  · intro i hi; rw [planeIdx_planePos b c i (Finset.mem_filter.1 hi).2]

/-- The reference's table at (b, c): the plane's sum from zero, divided by 16384. -/
theorem poolMean_apply (x : FVec Ideal S16x512x128x128 .f32) (b : Fin 16) (c : Fin 512) :
    poolMean x (ix2 b c) = Ideal.div (0 + ∑ k : Fin 16384, x (planeIdx b c k)) ((16384 : ℝ) : EReal) := by
  show Ideal.div (Ideal.hostReduceAdd reducesTo_S16x512x128x128_S16x512_d2_3 x (Ideal.ofBits .f32 0x00000000#32) (ix2 b c))
      (Ideal.ofBits .f32 0x46800000#32) = _
  rw [planeSum_apply, Ideal.ofBits_zero_f32, ofBits_16384]

/-! ## The kernel's side, layout operation by layout operation -/

section Layout
variable {F : FTy → Type} [FloatOps F]

/-- The relaid input at (r, k) is the input at (r / 512, r % 512, k / 128, k % 128): equal row-major positions. -/
theorem relaid_apply (x : FVec F S16x512x128x128 .f32) (r : Fin 8192) (k : Fin 16384) :
    relaid x (ix2 r k)
      = x (ix4 (⟨r.val / 512, by have := r.isLt; omega⟩ : Fin 16) (⟨r.val % 512, Nat.mod_lt _ (by decide)⟩ : Fin 512)
          (⟨k.val / 128, by have := k.isLt; omega⟩ : Fin 128) (⟨k.val % 128, Nat.mod_lt _ (by decide)⟩ : Fin 128)) := by
  unfold relaid
  refine shapeCast_apply _ _ _ _ ?_
  rw [Shape.rowMajor_val_four, Shape.rowMajor_val_two]
  show ((r.val / 512 * 512 + r.val % 512) * 128 + k.val / 128) * 128 + k.val % 128 = r.val * 16384 + k.val
  omega

/-- The [16,512] table at (b, c) is the [32,1,256] array at (t, 0, q), where 256·t + q = 512·b + c. -/
theorem pooledTable_apply (v1 : FVec F S32x1x256 .f32) (b : Fin 16) (c : Fin 512) :
    pooledTable v1 (ix2 b c)
      = v1 (ix3 (⟨(512 * b.val + c.val) / 256, by have := b.isLt; have := c.isLt; omega⟩ : Fin 32) (0 : Fin 1)
          (⟨(512 * b.val + c.val) % 256, Nat.mod_lt _ (by decide)⟩ : Fin 256)) := by
  unfold pooledTable
  refine (shapeCast_apply _ _ _ (ix1 (⟨512 * b.val + c.val, by have := b.isLt; have := c.isLt; omega⟩ : Fin 8192)) ?_).trans ?_
  · rw [Shape.rowMajor_val_one, Shape.rowMajor_val_two]
    show 512 * b.val + c.val = b.val * 512 + c.val
    omega
  · refine shapeCast_apply _ _ _ _ ?_
    rw [Shape.rowMajor_val_three, Shape.rowMajor_val_one]
    show ((512 * b.val + c.val) / 256 * 1 + 0) * 256 + (512 * b.val + c.val) % 256 = 512 * b.val + c.val
    omega

end Layout

/-- A block's add-reduction over its second axis at q is the sum of row q. -/
theorem rowSum_apply (blk : FVec Ideal S256x16384 .f32) (q : Fin 256) :
    multiReduction .add [1] S256 blk 0x00000000#32 reduces_S256x16384_S256 (.inl rfl) rfl (ix1 q)
      = ∑ k : Fin 16384, blk (ix2 q k) := by
  refine (Ideal.multiReduction_add_single blk _ reduces_S256x16384_S256 _ _ (ix1 q)).trans ?_
  refine Finset.sum_congr rfl fun k _ => congrArg blk ?_
  funext a
  match a with
  | ⟨0, _⟩ => rfl
  | ⟨1, _⟩ => rfl

/-- One block pooled: entry (0, 0, q) is the sum of the block's row q times 2⁻¹⁴. -/
theorem poolBlock_apply (blk : Vec Ideal S256x16384 .f32) (q : Fin 256) :
    poolBlock blk (ix3 (0 : Fin 1) (0 : Fin 1) q) = (∑ k : Fin 16384, blk (ix2 q k)) * (((1 : ℝ) / 16384 : ℝ) : EReal) := by
  unfold poolBlock
  -- [1,1,256] at (0,0,q) reads [1,256] at (0,q)
  refine (shapeCast_apply _ _ _ (ix2 (0 : Fin 1) q) ?_).trans ?_
  · rw [Shape.rowMajor_val_two, Shape.rowMajor_val_three]
    show 0 * 256 + q.val = (0 * 1 + 0) * 256 + q.val
    omega
  -- the product with the broadcast scalar
  rw [mulf_apply, broadcast_apply]
  refine congrArg₂ (· * ·) ?_ ofBits_inv16384
  -- [1,256] at (0,q) reads the transposed [256,1] at (q,0), which reads [256] at q
  refine (transpose_apply _ _ _ _ (ix2 q (0 : Fin 1)) (fun b => match b with | ⟨0, _⟩ => rfl | ⟨1, _⟩ => rfl)).trans ?_
  refine (shapeCast_apply _ _ _ (ix1 q) ?_).trans ?_
  · rw [Shape.rowMajor_val_one, Shape.rowMajor_val_two]
    show q.val = q.val * 1 + 0
    omega
  rw [shapeCast_self]
  exact rowSum_apply blk q

/-- The pooled array at (t, 0, q): the sum of row 256·t + q of the relaid input times 2⁻¹⁴. -/
theorem poolBlocks_apply (x2 : FVec Ideal S8192x16384 .f32) (t : Fin 32) (q : Fin 256) :
    poolBlocks x2 (ix3 t (0 : Fin 1) q)
      = (∑ k : Fin 16384, x2 (ix2 (⟨256 * t.val + q.val, by have := t.isLt; have := q.isLt; omega⟩ : Fin 8192) k))
          * (((1 : ℝ) / 16384 : ℝ) : EReal) :=
  poolBlock_apply (rowBlock x2 t) q

/-- Row 512·b + c of the relaid input, written as 256·t + q, is plane (b, c) read along its flat positions. -/
theorem relaid_row_apply (x : FVec Ideal S16x512x128x128 .f32) (b : Fin 16) (c : Fin 512) (k : Fin 16384) :
    relaid x (ix2 (⟨256 * ((512 * b.val + c.val) / 256) + (512 * b.val + c.val) % 256, by
        have := b.isLt; have := c.isLt; omega⟩ : Fin 8192) k) = x (planeIdx b c k) := by
  rw [relaid_apply]
  refine congrArg x ?_
  have hb := b.isLt
  have hc := c.isLt
  funext a
  refine Fin.ext ?_
  match a with
  | ⟨0, _⟩ =>
    show (256 * ((512 * b.val + c.val) / 256) + (512 * b.val + c.val) % 256) / 512 = b.val
    omega
  | ⟨1, _⟩ =>
    show (256 * ((512 * b.val + c.val) / 256) + (512 * b.val + c.val) % 256) % 512 = c.val
    omega
  | ⟨2, _⟩ => rfl
  | ⟨3, _⟩ => rfl

/-- The kernel's table at (b, c): the sum over plane (b, c)'s flat positions times 2⁻¹⁴. -/
theorem kernelPool_apply (x : FVec Ideal S16x512x128x128 .f32) (b : Fin 16) (c : Fin 512) :
    pooledTable (poolBlocks (relaid x)) (ix2 b c)
      = (∑ k : Fin 16384, x (planeIdx b c k)) * (((1 : ℝ) / 16384 : ℝ) : EReal) := by
  rw [pooledTable_apply, poolBlocks_apply]
  exact congrArg (fun s : EReal => s * (((1 : ℝ) / 16384 : ℝ) : EReal))
    (Finset.sum_congr rfl fun k _ => relaid_row_apply x b c k)

/-! ## The two sides meet -/

theorem pool_eq (x : FVec Ideal S16x512x128x128 .f32) : pooledTable (F := Ideal) (poolBlocks (relaid x)) = poolMean x := by
  funext j
  obtain ⟨b, c, rfl⟩ : ∃ (b : Fin 16) (c : Fin 512), j = ix2 b c := ⟨j 0, j 1, eq_ix2 j⟩
  rw [kernelPool_apply, poolMean_apply, zero_add, Ideal.div_coe (by norm_num)]

end Cert.Spec

end
-- ==== Proof.Gate.lean ====
/-
  The two gates agree over the extended reals: the pooled table is the table of plane means, and each straight-through
  layer is the plain one.
-/
import proofs.«413852_j23957327577370_3_alg».proof.Proof.BridgeSte
import proofs.«413852_j23957327577370_3_alg».proof.Proof.BridgePool

noncomputable section

namespace Cert.Spec

open Idealize.ShloMosaic

theorem gate_eq (x : FVec Ideal S16x512x128x128 .f32) (mb1 : FVec Ideal S1x512 .f32) (w1 : FVec Ideal S512x512 .f32) (γ β : FVec Ideal S512 .f32)
    (lb : FVec Ideal S1x512 .f32) (a : FVec Ideal S512 .f32) (mb2 : FVec Ideal S1x512 .f32) (w2 : FVec Ideal S512x512 .f32) :
    kernelGate (F := Ideal) x mb1 w1 γ β lb a mb2 w2 = referenceGate x mb1 w1 γ β lb a mb2 w2 := by
  unfold kernelGate referenceGate gateOfPool gateOfPoolSte
  rw [pool_eq, binLinSte_eq, binLinSte_eq]

end Cert.Spec

end
-- ==== Proof.lean ====
/-
  The certificate of a gate of two binarised linear layers around a batch normalisation and a PReLU, fed by a global
  average pool over 128×128 planes.

  The kernel pools block by block inside one pipelined region (32 blocks of 256 rows of the input relaid as
  8192 × 16384, each row summed and scaled by 2⁻¹⁴) and computes the rest on the host with plain signs; the reference
  divides each plane's sum by 16384 and writes both binarisations in straight-through form (s − t) + t with a bounded
  surrogate t. Over the extended reals the two results are one function of the arguments (Proof/Gate.lean): a sum does
  not depend on the arrangement of its terms, multiplying by 2⁻¹⁴ is dividing by 16384, and (s − t) + t = s for a
  finite t. Each program runs to the end, faults nowhere and leaves its arguments unchanged: the kernel's programs by
  the region's frame (Proof/KFrame.lean and its word-level twin), the reference as a straight line of host operations
  (Proof/RRun.lean). The idealisation rewrote nothing, so there is nothing to preserve.
-/
import proofs.«413852_j23957327577370_3_alg».proof.Defs
import proofs.«413852_j23957327577370_3_alg».proof.Proof.Gen.Kernel
import proofs.«413852_j23957327577370_3_alg».proof.Proof.Gen.KernelIdeal
import proofs.«413852_j23957327577370_3_alg».proof.Proof.Gen.ReferenceIdeal
import proofs.«413852_j23957327577370_3_alg».proof.Proof.Gen.Pre_finite_inputs
import proofs.«413852_j23957327577370_3_alg».proof.Proof.KFrameB
import proofs.«413852_j23957327577370_3_alg».proof.Proof.KValue
import proofs.«413852_j23957327577370_3_alg».proof.Proof.RRun
import proofs.«413852_j23957327577370_3_alg».proof.Proof.Gate
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

/-- Both runs end at the reference's gate of the kernel's arguments: the kernel's own gate is that function
    (Gate.lean), and the reference's arguments are the kernel's. -/
theorem algebraic : Cert.algebraic_KernelIdeal_ReferenceIdeal := by
  intro m ρ m' ρ' _ hagree
  refine ⟨fun c => Cert.Spec.referenceGate (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.Spec.gate_eq _ _ _ _ _ _ _ _ _), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Hand.run (F := Ideal) m' ρ')
    obtain ⟨h0, h1, h2, h3, h4, h5, h6, h7, h8⟩ := hagree c
    rw [h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
